-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x5 : Shape := ⟨2, ![32768, 5]⟩
abbrev S1x32768x1024 : Shape := ⟨3, ![1, 32768, 1024]⟩
abbrev S4096x1 : Shape := ⟨2, ![4096, 1]⟩
abbrev S4096x1024 : Shape := ⟨2, ![4096, 1024]⟩
abbrev S4096 : Shape := ⟨1, ![4096]⟩
abbrev S2048x4 : Shape := ⟨2, ![2048, 4]⟩
abbrev S2048 : Shape := ⟨1, ![2048]⟩
abbrev S2048x2048 : Shape := ⟨2, ![2048, 2048]⟩
abbrev S1x1024 : Shape := ⟨2, ![1, 1024]⟩
abbrev S1 : Shape := ⟨1, ![1]⟩
abbrev S_ : Shape := ⟨0, ![]⟩

class Facts : Prop where
  bcast_S_S32768x5 : S_.BroadcastsInDim S32768x5 (![] : Fin 0 → Fin S32768x5.rank)
  reducesTo_S32768x5_S_d0_1 : S32768x5.ReducesTo [0, 1] S_
  h_S_ : 0 < S_.numel
  bcast_S_S1x32768x1024 : S_.BroadcastsInDim S1x32768x1024 (![] : Fin 0 → Fin S1x32768x1024.rank)
  reducesTo_S1x32768x1024_S_d0_1_2 : S1x32768x1024.ReducesTo [0, 1, 2] S_
  bcast_S_S4096x1 : S_.BroadcastsInDim S4096x1 (![] : Fin 0 → Fin S4096x1.rank)
  reducesTo_S4096x1_S_d0_1 : S4096x1.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x1024 .f32) (main_arg12 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2048x4 .f32) (main_arg8 : FVec F S2048 .f32) (main_arg9 : FVec F S2048x2048 .f32) (main_arg10 : FVec F S2048 .f32) (main_arg11 : FVec F S1x1024 .f32) (main_arg12 : FVec F S1 .f32) (main_v33 : IVec S_ 1) : IVec S_ 1 :=
  let main_v34 : FVec F S2048x4 .f32 := Host.absf main_arg7
  let main_cst_12 : FVec F S_ .f32 := constant S_ .f32 0x7F800000#32
  let main_v35 : FVec F S2048x4 .f32 := broadcastInDim S2048x4 ![] bcast_S_S2048x4 main_cst_12
  let main_v36 : IVec S2048x4 1 := cmpf .olt main_v34 main_v35
  let main_c_13 : IVec S_ 1 := constantI S_ 1 1#1
  let main_v37 : IVec S_ 1 := (fun x v => Host.reduce IntOp.andi x v reducesTo_S2048x4_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S4096x1024 .f32) (main_arg5 : FVec F S4096 .f32) (main_arg6 : FVec F S4096 .f32) (main_arg7 : FVec F S2048x4 .f32) (main_arg8 : FVec F S2048 .f32) (main_arg9 : FVec F S2048x2048 .f32) (main_arg10 : FVec F S2048 .f32) (main_arg11 : FVec F S1x1024 .f32) (main_arg12 : FVec F S1 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x5 .f32) (main_arg1 : FVec F S1x32768x1024 .f32) (main_arg2 : FVec F S1x32768x1024 .f32) (main_arg3 : FVec F S4096x1 .f32) (main_arg4 : FVec F S4096x1024 .f32) (main_arg5 : FVec F S4096 .f32) (main_arg6 : FVec F S4096 .f32) (main_arg7 : FVec F S2048x4 .f32) (main_arg8 : FVec F S2048 .f32) (main_arg9 : FVec F S2048x2048 .f32) (main_arg10 : FVec F S2048 .f32) (main_arg11 : FVec F S1x1024 .f32) (main_arg12 : FVec F S1 .f32) : IVec S_ 1 :=
  let main_v0 : FVec F S32768x5 .f32 := Host.absf main_arg0
  let main_cst : FVec F S_ .f32 := constant S_ .f32 0x7F800000#32
  let main_v1 : FVec F S32768x5 .f32 := broadcastInDim S32768x5 ![] bcast_S_S32768x5 main_cst
  let main_v2 : IVec S32768x5 1 := cmpf .olt main_v0 main_v1
  let main_c : IVec S_ 1 := constantI S_ 1 1#1
  let main_v3 : IVec S_ 1 := (fun x v => Host.reduce IntOp.andi x v reducesTo_S32768x5_S_d0_1 h_S_) main_v2 main_c
  let main_v4 : FVec F S1x32768x1024 .f32 := Host.absf main_arg1
  let main_cst_0 : FVec F S_ .f32 := constant S_ .f32 0x7F800000#32
  let main_v5 : FVec F S1x32768x1024 .f32 := broadcastInDim S1x32768x1024 ![] bcast_S_S1x32768x1024 main_cst_0
  let main_v6 : IVec S1x32768x1024 1 := cmpf .olt main_v4 main_v5
  let main_c_1 : IVec S_ 1 := constantI S_ 1 1#1
  let main_v7 : IVec S_ 1 := (fun x v => Host.reduce IntOp.andi x v reducesTo_S1x32768x1024_S_d0_1_2 h_S_) main_v6 main_c_1
  let main_v8 : IVec S_ 1 := andi main_v3 main_v7
  let main_v9 : FVec F S1x32768x1024 .f32 := Host.absf main_arg2
  let main_cst_2 : FVec F S_ .f32 := constant S_ .f32 0x7F800000#32
  let main_v10 : FVec F S1x32768x1024 .f32 := broadcastInDim S1x32768x1024 ![] bcast_S_S1x32768x1024 main_cst_2
  let main_v11 : IVec S1x32768x1024 1 := cmpf .olt main_v9 main_v10
  let main_c_3 : IVec S_ 1 := constantI S_ 1 1#1
  let main_v12 : IVec S_ 1 := (fun x v => Host.reduce IntOp.andi x v reducesTo_S1x32768x1024_S_d0_1_2 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_arg5 main_arg6 main_arg7 main_arg8 main_arg9 main_arg10 main_arg11 main_arg12 main_v13 main_v16
-- ==== Kernel.lean ====
abbrev S32768x5 : Shape := ⟨2, ![32768, 5]⟩
abbrev S1x32768x1024 : Shape := ⟨3, ![1, 32768, 1024]⟩
abbrev S4096x1 : Shape := ⟨2, ![4096, 1]⟩
abbrev S4096x1024 : Shape := ⟨2, ![4096, 1024]⟩
abbrev S4096 : Shape := ⟨1, ![4096]⟩
abbrev S2048x4 : Shape := ⟨2, ![2048, 4]⟩
abbrev S2048 : Shape := ⟨1, ![2048]⟩
abbrev S2048x2048 : Shape := ⟨2, ![2048, 2048]⟩
abbrev S1x1024 : Shape := ⟨2, ![1, 1024]⟩
abbrev S1 : Shape := ⟨1, ![1]⟩
abbrev S32768x1024 : Shape := ⟨2, ![32768, 1024]⟩
abbrev S1x4096 : Shape := ⟨2, ![1, 4096]⟩
abbrev S1024x4096 : Shape := ⟨2, ![1024, 4096]⟩
abbrev S4x2048 : Shape := ⟨2, ![4, 2048]⟩
abbrev S1x2048 : Shape := ⟨2, ![1, 2048]⟩
abbrev S1024x1 : Shape := ⟨2, ![1024, 1]⟩
abbrev S1x1 : Shape := ⟨2, ![1, 1]⟩
abbrev S32768x1 : Shape := ⟨2, ![32768, 1]⟩
abbrev S64x5 : Shape := ⟨2, ![64, 5]⟩
abbrev S64x1024 : Shape := ⟨2, ![64, 1024]⟩
abbrev S64x1 : Shape := ⟨2, ![64, 1]⟩
abbrev S64x4 : Shape := ⟨2, ![64, 4]⟩
abbrev S64x4096 : Shape := ⟨2, ![64, 4096]⟩
abbrev S64x2048 : Shape := ⟨2, ![64, 2048]⟩

abbrev nBuf : Space → Nat
  | .hbm => 32
  | .vmem => 17
  | .smem => 0
  | _ => 0

abbrev bufTy : (tb : Table) → Fin (tcTables nBuf tb) → BufTy
  | .hbm, ⟨0, _⟩ => ⟨S32768x5, .f32⟩
  | .hbm, ⟨1, _⟩ => ⟨S1x32768x1024, .f32⟩
  | .hbm, ⟨2, _⟩ => ⟨S1x32768x1024, .f32⟩
  | .hbm, ⟨3, _⟩ => ⟨S4096x1, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S2048x4, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S1x1024, .f32⟩
  | .hbm, ⟨12, _⟩ => ⟨S1, .f32⟩
  | .hbm, ⟨13, _⟩ => ⟨S32768x1024, .f32⟩
  | .hbm, ⟨14, _⟩ => ⟨S32768x1024, .f32⟩
  | .hbm, ⟨15, _⟩ => ⟨S4096, .f32⟩
  | .hbm, ⟨16, _⟩ => ⟨S1x4096, .f32⟩
  | .hbm, ⟨17, _⟩ => ⟨S1x4096, .bf16⟩
  | .hbm, ⟨18, _⟩ => ⟨S4096, .f32⟩
  | .hbm, ⟨19, _⟩ => ⟨S1x4096, .f32⟩
  | .hbm, ⟨20, _⟩ => ⟨S1024x4096, .f32⟩
  | .hbm, ⟨21, _⟩ => ⟨S1024x4096, .bf16⟩
  | .hbm, ⟨22, _⟩ => ⟨S4x2048, .f32⟩
  | .hbm, ⟨23, _⟩ => ⟨S4x2048, .bf16⟩
  | .hbm, ⟨24, _⟩ => ⟨S1x2048, .f32⟩
  | .hbm, ⟨25, _⟩ => ⟨S2048x2048, .f32⟩
  | .hbm, ⟨26, _⟩ => ⟨S2048x2048, .bf16⟩
  | .hbm, ⟨27, _⟩ => ⟨S1x2048, .f32⟩
  | .hbm, ⟨28, _⟩ => ⟨S1024x1, .f32⟩
  | .hbm, ⟨29, _⟩ => ⟨S1024x1, .bf16⟩
  | .hbm, ⟨30, _⟩ => ⟨S1x1, .f32⟩
  | .hbm, ⟨31, _⟩ => ⟨S32768x1, .f32⟩
  | .local _ .vmem, ⟨0, _⟩ => ⟨S64x5, .f32⟩
  | .local _ .vmem, ⟨1, _⟩ => ⟨S64x5, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x4096, .bf16⟩
  | .local _ .vmem, ⟨7, _⟩ => ⟨S1024x4096, .bf16⟩
  | .local _ .vmem, ⟨8, _⟩ => ⟨S1x4096, .f32⟩
  | .local _ .vmem, ⟨9, _⟩ => ⟨S4x2048, .bf16⟩
  | .local _ .vmem, ⟨10, _⟩ => ⟨S1x2048, .f32⟩
  | .local _ .vmem, ⟨11, _⟩ => ⟨S2048x2048, .bf16⟩
  | .local _ .vmem, ⟨12, _⟩ => ⟨S1x2048, .f32⟩
  | .local _ .vmem, ⟨13, _⟩ => ⟨S1024x1, .bf16⟩
  | .local _ .vmem, ⟨14, _⟩ => ⟨S1x1, .f32⟩
  | .local _ .vmem, ⟨15, _⟩ => ⟨S64x1, .f32⟩
  | .local _ .vmem, ⟨16, _⟩ => ⟨S64x1, .f32⟩
  | _, _ => ⟨S32768x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1x32768x1024_S32768x1024 : S1x32768x1024.ShapeCasts S32768x1024
  shapeCasts_S4096x1_S4096 : S4096x1.ShapeCasts S4096
  shapeCasts_S4096_S1x4096 : S4096.ShapeCasts S1x4096
  bitsLt_bf16_f32 : FTy.bits .bf16 < FTy.bits .f32
  transposes_S4096x1024_S1024x4096_1_0 : S4096x1024.Transposes [1, 0] S1024x4096
  transposes_S2048x4_S4x2048_1_0 : S2048x4.Transposes [1, 0] S4x2048
  shapeCasts_S2048_S1x2048 : S2048.ShapeCasts S1x2048
  transposes_S2048x2048_S2048x2048_1_0 : S2048x2048.Transposes [1, 0] S2048x2048
  transposes_S1x1024_S1024x1_1_0 : S1x1024.Transposes [1, 0] S1024x1
  shapeCasts_S1_S1x1 : S1.ShapeCasts S1x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x5_S64x1_0_0 : ∀ a, (![0, 0] : Fin 2 → Nat) a + S64x1.size a ≤ S64x5.size a
  h_S64x1 : 0 < S64x1.numel
  inb_S64x5_S64x4_0_1 : ∀ a, (![0, 1] : Fin 2 → Nat) a + S64x4.size a ≤ S64x5.size a
  h_S64x4 : 0 < S64x4.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  slices_S64x4096_o0_0_S64x1024 : S64x4096.Slices ![0, 0] S64x1024
  slices_S64x4096_o0_1024_S64x1024 : S64x4096.Slices ![0, 1024] S64x1024
  slices_S64x4096_o0_2048_S64x1024 : S64x4096.Slices ![0, 2048] S64x1024
  slices_S64x4096_o0_3072_S64x1024 : S64x4096.Slices ![0, 3072] S64x1024
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S64x2048_o0_0_S64x1024 : S64x2048.Slices ![0, 0] S64x1024
  slices_S64x2048_o0_1024_S64x1024 : S64x2048.Slices ![0, 1024] S64x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  dot_S64x1024_S1024x4096_S64x4096_1_0_0_1_n_n_wf : DotDims.WF S64x1024 S1024x4096 S64x4096 [1] [0] [0] [1] [] []
  dot_S64x1_S1x4096_S64x4096_1_0_0_1_n_n_wf : DotDims.WF S64x1 S1x4096 S64x4096 [1] [0] [0] [1] [] []
  dot_S64x4_S4x2048_S64x2048_1_0_0_1_n_n_wf : DotDims.WF S64x4 S4x2048 S64x2048 [1] [0] [0] [1] [] []
  dot_S64x2048_S2048x2048_S64x2048_1_0_0_1_n_n_wf : DotDims.WF S64x2048 S2048x2048 S64x2048 [1] [0] [0] [1] [] []
  dot_S64x1024_S1024x1_S64x1_1_0_0_1_n_n_wf : DotDims.WF S64x1024 S1024x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x5.size a ≤ S32768x5.size a
  hwx0_0 : ∀ i : grid0.Coords, EltTy.bits .f32 = 32 ∨ (Rect.block (s := S32768x5) S64x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S32768x1024.size a
  hwx0_1 : ∀ i : grid0.Coords, EltTy.bits .f32 = 32 ∨ (Rect.block (s := S32768x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S32768x1024.size a
  hwx0_2 : ∀ i : grid0.Coords, EltTy.bits .f32 = 32 ∨ (Rect.block (s := S32768x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .bf16 = 32 ∨ (Rect.block (s := S1x4096) S1x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x2048.size a ≤ S4x2048.size a
  hwx0_6 : ∀ i : grid0.Coords, EltTy.bits .bf16 = 32 ∨ (Rect.block (s := S4x2048) S4x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S1024x1.size a
  hwx0_10 : ∀ i : grid0.Coords, EltTy.bits .bf16 = 32 ∨ (Rect.block (s := S1024x1) S1024x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S32768x1.size a
  hwx0_12 : ∀ i : grid0.Coords, EltTy.bits .f32 = 32 ∨ (Rect.block (s := S32768x1) S64x1.size (cc0_transform_12 i) (hinb0_12 i)).WholeWords (EltTy.packing .f32)

variable [Facts₀]

def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x1_S1x4096_S64x4096_1_0_0_1_n_n : DotDims S64x1 S1x4096 S64x4096 where
  lhsContracting := [1]
  rhsContracting := [0]
  lhsNonContracting := [0]
  rhsNonContracting := [1]
  lhsBatch := []
  rhsBatch := []
  wf := dot_S64x1_S1x4096_S64x4096_1_0_0_1_n_n_wf
def dot_S64x4_S4x2048_S64x2048_1_0_0_1_n_n : DotDims S64x4 S4x2048 S64x2048 where
  lhsContracting := [1]
  rhsContracting := [0]
  lhsNonContracting := [0]
  rhsNonContracting := [1]
  lhsBatch := []
  rhsBatch := []
  wf := dot_S64x4_S4x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x1024_S1024x1_S64x1_1_0_0_1_n_n : DotDims S64x1024 S1024x1 S64x1 where
  lhsContracting := [1]
  rhsContracting := [0]
  lhsNonContracting := [0]
  rhsNonContracting := [1]
  lhsBatch := []
  rhsBatch := []
  wf := dot_S64x1024_S1024x1_S64x1_1_0_0_1_n_n_wf

abbrev win0_0 : Pipeline.Window sig grid0 :=
  Pipeline.Window.ofSpec (Memref.whole main_arg0) S64x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1024x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S64x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x5 : Shape := ⟨2, ![32768, 5]⟩
abbrev S1x32768x1024 : Shape := ⟨3, ![1, 32768, 1024]⟩
abbrev S4096x1 : Shape := ⟨2, ![4096, 1]⟩
abbrev S4096x1024 : Shape := ⟨2, ![4096, 1024]⟩
abbrev S4096 : Shape := ⟨1, ![4096]⟩
abbrev S2048x4 : Shape := ⟨2, ![2048, 4]⟩
abbrev S2048 : Shape := ⟨1, ![2048]⟩
abbrev S2048x2048 : Shape := ⟨2, ![2048, 2048]⟩
abbrev S1x1024 : Shape := ⟨2, ![1, 1024]⟩
abbrev S1 : Shape := ⟨1, ![1]⟩
abbrev S32768x1 : Shape := ⟨2, ![32768, 1]⟩
abbrev S32768x4 : Shape := ⟨2, ![32768, 4]⟩
abbrev S32768x1024 : Shape := ⟨2, ![32768, 1024]⟩
abbrev S1x4096 : Shape := ⟨2, ![1, 4096]⟩
abbrev S32768x4096 : Shape := ⟨2, ![32768, 4096]⟩
abbrev S1024x4096 : Shape := ⟨2, ![1024, 4096]⟩
abbrev S_ : Shape := ⟨0, ![]⟩
abbrev S4x2048 : Shape := ⟨2, ![4, 2048]⟩
abbrev S32768x2048 : Shape := ⟨2, ![32768, 2048]⟩
abbrev S1x2048 : Shape := ⟨2, ![1, 2048]⟩
abbrev S1024x1 : Shape := ⟨2, ![1024, 1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S32768x5, .f32⟩
  | .hbm, ⟨1, _⟩ => ⟨S1x32768x1024, .f32⟩
  | .hbm, ⟨2, _⟩ => ⟨S1x32768x1024, .f32⟩
  | .hbm, ⟨3, _⟩ => ⟨S4096x1, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S2048x4, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S1x1024, .f32⟩
  | .hbm, ⟨12, _⟩ => ⟨S1, .f32⟩
  | .hbm, ⟨13, _⟩ => ⟨S32768x1, .f32⟩
  | .hbm, ⟨14, _⟩ => ⟨S32768x4, .f32⟩
  | .hbm, ⟨15, _⟩ => ⟨S32768x1024, .f32⟩
  | .hbm, ⟨16, _⟩ => ⟨S32768x1024, .f32⟩
  | .hbm, ⟨17, _⟩ => ⟨S1x4096, .f32⟩
  | .hbm, ⟨18, _⟩ => ⟨S32768x4096, .f32⟩
  | .hbm, ⟨19, _⟩ => ⟨S1x4096, .f32⟩
  | .hbm, ⟨20, _⟩ => ⟨S32768x4096, .f32⟩
  | .hbm, ⟨21, _⟩ => ⟨S32768x4096, .f32⟩
  | .hbm, ⟨22, _⟩ => ⟨S1024x4096, .f32⟩
  | .hbm, ⟨23, _⟩ => ⟨S32768x4096, .f32⟩
  | .hbm, ⟨24, _⟩ => ⟨S32768x4096, .f32⟩
  | .hbm, ⟨25, _⟩ => ⟨S1x4096, .f32⟩
  | .hbm, ⟨26, _⟩ => ⟨S32768x4096, .f32⟩
  | .hbm, ⟨27, _⟩ => ⟨S32768x4096, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S4x2048, .f32⟩
  | .hbm, ⟨63, _⟩ => ⟨S32768x2048, .f32⟩
  | .hbm, ⟨64, _⟩ => ⟨S1x2048, .f32⟩
  | .hbm, ⟨65, _⟩ => ⟨S32768x2048, .f32⟩
  | .hbm, ⟨66, _⟩ => ⟨S32768x2048, .f32⟩
  | .hbm, ⟨67, _⟩ => ⟨S_, .f32⟩
  | .hbm, ⟨68, _⟩ => ⟨S32768x2048, .f32⟩
  | .hbm, ⟨69, _⟩ => ⟨S32768x2048, .f32⟩
  | .hbm, ⟨70, _⟩ => ⟨S2048x2048, .f32⟩
  | .hbm, ⟨71, _⟩ => ⟨S32768x2048, .f32⟩
  | .hbm, ⟨72, _⟩ => ⟨S1x2048, .f32⟩
  | .hbm, ⟨73, _⟩ => ⟨S32768x2048, .f32⟩
  | .hbm, ⟨74, _⟩ => ⟨S32768x2048, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S1024x1, .f32⟩
  | .hbm, ⟨80, _⟩ => ⟨S32768x1, .f32⟩
  | .hbm, ⟨81, _⟩ => ⟨S1x1, .f32⟩
  | .hbm, ⟨82, _⟩ => ⟨S32768x1, .f32⟩
  | .hbm, ⟨83, _⟩ => ⟨S32768x1, .f32⟩
  | _, _ => ⟨S32768x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  slices_S32768x5_S32768x1_0_0 : S32768x5.Slices ![0, 0] S32768x1
  slices_S32768x5_S32768x4_0_1 : S32768x5.Slices ![0, 1] S32768x4
  shapeCasts_S1x32768x1024_S32768x1024 : S1x32768x1024.ShapeCasts S32768x1024
  transposes_S4096x1_S1x4096_1_0 : S4096x1.Transposes [1, 0] S1x4096
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  transposes_S4096x1024_S1024x4096_1_0 : S4096x1024.Transposes [1, 0] S1024x4096
  slices_S32768x4096_S32768x1024_0_0 : S32768x4096.Slices ![0, 0] S32768x1024
  slices_S32768x4096_S32768x1024_0_1024 : S32768x4096.Slices ![0, 1024] S32768x1024
  slices_S32768x4096_S32768x1024_0_2048 : S32768x4096.Slices ![0, 2048] S32768x1024
  slices_S32768x4096_S32768x1024_0_3072 : S32768x4096.Slices ![0, 3072] S32768x1024
  bcast_S_S32768x1024 : S_.BroadcastsInDim S32768x1024 (![] : Fin 0 → Fin S32768x1024.rank)
  transposes_S2048x4_S4x2048_1_0 : S2048x4.Transposes [1, 0] S4x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  transposes_S2048x2048_S2048x2048_1_0 : S2048x2048.Transposes [1, 0] S2048x2048
  slices_S32768x2048_S32768x1024_0_0 : S32768x2048.Slices ![0, 0] S32768x1024
  slices_S32768x2048_S32768x1024_0_1024 : S32768x2048.Slices ![0, 1024] S32768x1024
  transposes_S1x1024_S1024x1_1_0 : S1x1024.Transposes [1, 0] S1024x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x1_S1x4096_S32768x4096_1_0_0_1_n_n_wf : DotDims.WF S32768x1 S1x4096 S32768x4096 [1] [0] [0] [1] [] []
  dot_S32768x1024_S1024x4096_S32768x4096_1_0_0_1_n_n_wf : DotDims.WF S32768x1024 S1024x4096 S32768x4096 [1] [0] [0] [1] [] []
  dot_S32768x4_S4x2048_S32768x2048_1_0_0_1_n_n_wf : DotDims.WF S32768x4 S4x2048 S32768x2048 [1] [0] [0] [1] [] []
  dot_S32768x2048_S2048x2048_S32768x2048_1_0_0_1_n_n_wf : DotDims.WF S32768x2048 S2048x2048 S32768x2048 [1] [0] [0] [1] [] []
  dot_S32768x1024_S1024x1_S32768x1_1_0_0_1_n_n_wf : DotDims.WF S32768x1024 S1024x1 S32768x1 [1] [0] [0] [1] [] []

variable [Facts₀]

def dot_S32768x1_S1x4096_S32768x4096_1_0_0_1_n_n : DotDims S32768x1 S1x4096 S32768x4096 where
  lhsContracting := [1]
  rhsContracting := [0]
  lhsNonContracting := [0]
  rhsNonContracting := [1]
  lhsBatch := []
  rhsBatch := []
  wf := dot_S32768x1_S1x4096_S32768x4096_1_0_0_1_n_n_wf
def dot_S32768x1024_S1024x4096_S32768x4096_1_0_0_1_n_n : DotDims S32768x1024 S1024x4096 S32768x4096 where
  lhsContracting := [1]
  rhsContracting := [0]
  lhsNonContracting := [0]
  rhsNonContracting := [1]
  lhsBatch := []
  rhsBatch := []
  wf := dot_S32768x1024_S1024x4096_S32768x4096_1_0_0_1_n_n_wf
def dot_S32768x4_S4x2048_S32768x2048_1_0_0_1_n_n : DotDims S32768x4 S4x2048 S32768x2048 where
  lhsContracting := [1]
  rhsContracting := [0]
  lhsNonContracting := [0]
  rhsNonContracting := [1]
  lhsBatch := []
  rhsBatch := []
  wf := dot_S32768x4_S4x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.KernelLeaves.lean ====
/-
  Every entry the kernel body loads at a grid point, as an entry of an argument array.

  The region streams the input rows, the previous hidden rows and the previous cell rows in tiles of 64 rows: at grid
  point `t` the tile's row `p` is row `64 · t + p` of the array. The nine parameter operands are whole arrays, the same at
  every point. Before the region the host lays the parameters out for the body: the recurrent, FiLM and head weights are
  transposed, the input weights' one column becomes one row, the two gate biases are added, and the bias vectors become
  rows. At the ideal values a change of float format is the identity, so each loaded entry is one entry of an argument
  array, at the swapped coordinates for the transposed weights, or for the gate bias the sum of two entries.
-/
import proofs.«131633_j76768245448756_1_alg».proof.Proof.Gen.KernelIdeal.Value
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.ValueIdx Idealize.ShloMosaic.TcCoe Idealize.SL.Sem

namespace Cert.KernelIdeal.Tile

open Cert.KernelIdeal Cert.KernelIdeal.Gen

variable (m : (ℓ : Loc nD τ sig) → Buf (Elt Ideal) ℓ)

/-! ## The argument arrays as launched, with their literal types -/

/-- The input rows: signal in column 0, selector in columns 1 to 4. -/
abbrev argX (c : Dev nD) : FVec Ideal S32768x5 .f32 := m ((c : Thread nD τ).loc main_arg0)
/-- The previous hidden state. -/
abbrev argH (c : Dev nD) : FVec Ideal S1x32768x1024 .f32 := m ((c : Thread nD τ).loc main_arg1)
/-- The previous cell state. -/
abbrev argC (c : Dev nD) : FVec Ideal S1x32768x1024 .f32 := m ((c : Thread nD τ).loc main_arg2)
/-- The input weights. -/
abbrev argWih (c : Dev nD) : FVec Ideal S4096x1 .f32 := m ((c : Thread nD τ).loc main_arg3)
/-- The recurrent weights. -/
abbrev argWhh (c : Dev nD) : FVec Ideal S4096x1024 .f32 := m ((c : Thread nD τ).loc main_arg4)
/-- The input bias. -/
abbrev argBih (c : Dev nD) : FVec Ideal S4096 .f32 := m ((c : Thread nD τ).loc main_arg5)
/-- The recurrent bias. -/
abbrev argBhh (c : Dev nD) : FVec Ideal S4096 .f32 := m ((c : Thread nD τ).loc main_arg6)
/-- The FiLM generator's first weights. -/
abbrev argW1 (c : Dev nD) : FVec Ideal S2048x4 .f32 := m ((c : Thread nD τ).loc main_arg7)
/-- Its first bias. -/
abbrev argB1 (c : Dev nD) : FVec Ideal S2048 .f32 := m ((c : Thread nD τ).loc main_arg8)
/-- Its second weights. -/
abbrev argW2 (c : Dev nD) : FVec Ideal S2048x2048 .f32 := m ((c : Thread nD τ).loc main_arg9)
/-- Its second bias. -/
abbrev argB2 (c : Dev nD) : FVec Ideal S2048 .f32 := m ((c : Thread nD τ).loc main_arg10)
/-- The head's weights. -/
abbrev argFcw (c : Dev nD) : FVec Ideal S1x1024 .f32 := m ((c : Thread nD τ).loc main_arg11)
/-- The head's bias. -/
abbrev argFcb (c : Dev nD) : FVec Ideal S1 .f32 := m ((c : Thread nD τ).loc main_arg12)

/-! ## Where the windows' blocks sit -/

/-- The three streamed inputs and the output move one block down the rows per grid point; the nine parameter operands
    stay at block (0, 0). Decided over the 512 points. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = t.val ∧ win0_12.index t (1 : Fin 2) = 0 :=
  (by decide +kernel : ∀ t : Fin grid0.N, _)

theorem point_lt (t : Fin cfg0.N) : t.val < 512 := lt_of_lt_of_eq t.isLt N_0

/-- Row `p` of the tile at grid point `t` is row `64 · t + p` of the batch. -/
def row (t : Fin cfg0.N) (p : Fin 64) : Fin 32768 :=
  ⟨t.val * 64 + p.val, by have := point_lt t; have := p.isLt; omega⟩

/-! ## The blocks, with their literal types -/

abbrev xTile (c : Dev nD) (t : Fin cfg0.N) : Vec Ideal S64x5 .f32 := iblk m c 0 t
abbrev hTile (c : Dev nD) (t : Fin cfg0.N) : Vec Ideal S64x1024 .f32 := iblk m c 1 t
abbrev cTile (c : Dev nD) (t : Fin cfg0.N) : Vec Ideal S64x1024 .f32 := iblk m c 2 t
abbrev wihRow (c : Dev nD) (t : Fin cfg0.N) : Vec Ideal S1x4096 .bf16 := iblk m c 3 t
abbrev whhT (c : Dev nD) (t : Fin cfg0.N) : Vec Ideal S1024x4096 .bf16 := iblk m c 4 t
abbrev biasRow (c : Dev nD) (t : Fin cfg0.N) : Vec Ideal S1x4096 .f32 := iblk m c 5 t
abbrev w1T (c : Dev nD) (t : Fin cfg0.N) : Vec Ideal S4x2048 .bf16 := iblk m c 6 t
abbrev b1Row (c : Dev nD) (t : Fin cfg0.N) : Vec Ideal S1x2048 .f32 := iblk m c 7 t
abbrev w2T (c : Dev nD) (t : Fin cfg0.N) : Vec Ideal S2048x2048 .bf16 := iblk m c 8 t
abbrev b2Row (c : Dev nD) (t : Fin cfg0.N) : Vec Ideal S1x2048 .f32 := iblk m c 9 t
abbrev fcwT (c : Dev nD) (t : Fin cfg0.N) : Vec Ideal S1024x1 .bf16 := iblk m c 10 t
abbrev fcbCell (c : Dev nD) (t : Fin cfg0.N) : Vec Ideal S1x1 .f32 := iblk m c 11 t

/-! ## A block's entry is an entry of its array as the region finds it -/

theorem xTile_apply (c : Dev nD) (t : Fin cfg0.N) (p : Fin 64) (q : Fin 5) :
    xTile m c t (ix2 p q) = V m c main_arg0 (ix2 (row t p) q) := by
  show V m c main_arg0 (((cfg0.win 0).blk t).view.emb (ix2 p q)) = _
  refine congrArg (V m c main_arg0) (funext fun a => Fin.ext ?_)
  obtain ⟨e0, e1, -⟩ := blockIndex t
  have hp := p.isLt; have hq := q.isLt
  match a with
  | ⟨0, _⟩ => show win0_0.index t (0 : Fin 2) * 64 + 1 * p.val = t.val * 64 + p.val; omega
  | ⟨1, _⟩ => show win0_0.index t (1 : Fin 2) * 5 + 1 * q.val = q.val; omega

theorem hTile_apply (c : Dev nD) (t : Fin cfg0.N) (p : Fin 64) (k : Fin 1024) :
    hTile m c t (ix2 p k) = V m c main_v0 (ix2 (row t p) k) := by
  show V m c main_v0 (((cfg0.win 1).blk t).view.emb (ix2 p k)) = _
  refine congrArg (V m c main_v0) (funext fun a => Fin.ext ?_)
  obtain ⟨-, -, e0, e1, -⟩ := blockIndex t
  match a with
  | ⟨0, _⟩ => show win0_1.index t (0 : Fin 2) * 64 + 1 * p.val = t.val * 64 + p.val; omega
  | ⟨1, _⟩ => show win0_1.index t (1 : Fin 2) * 1024 + 1 * k.val = k.val; omega

theorem cTile_apply (c : Dev nD) (t : Fin cfg0.N) (p : Fin 64) (k : Fin 1024) :
    cTile m c t (ix2 p k) = V m c main_v1 (ix2 (row t p) k) := by
  show V m c main_v1 (((cfg0.win 2).blk t).view.emb (ix2 p k)) = _
  refine congrArg (V m c main_v1) (funext fun a => Fin.ext ?_)
  obtain ⟨-, -, -, -, e0, e1, -⟩ := blockIndex t
  match a with
  | ⟨0, _⟩ => show win0_2.index t (0 : Fin 2) * 64 + 1 * p.val = t.val * 64 + p.val; omega
  | ⟨1, _⟩ => show win0_2.index t (1 : Fin 2) * 1024 + 1 * k.val = k.val; omega

theorem wihRow_apply (c : Dev nD) (t : Fin cfg0.N) (u : Fin 1) (j : Fin 4096) :
    wihRow m c t (ix2 u j) = V m c main_v4 (ix2 u j) := by
  show V m c main_v4 (((cfg0.win 3).blk t).view.emb (ix2 u j)) = _
  refine congrArg (V m c main_v4) (funext fun a => Fin.ext ?_)
  obtain ⟨-, -, -, -, -, -, e0, e1, -⟩ := blockIndex t
  match a with
  | ⟨0, _⟩ => show win0_3.index t (0 : Fin 2) * 1 + 1 * u.val = u.val; omega
  | ⟨1, _⟩ => show win0_3.index t (1 : Fin 2) * 4096 + 1 * j.val = j.val; omega

theorem whhT_apply (c : Dev nD) (t : Fin cfg0.N) (k : Fin 1024) (j : Fin 4096) :
    whhT m c t (ix2 k j) = V m c main_v8 (ix2 k j) := by
  show V m c main_v8 (((cfg0.win 4).blk t).view.emb (ix2 k j)) = _
  refine congrArg (V m c main_v8) (funext fun a => Fin.ext ?_)
  obtain ⟨-, -, -, -, -, -, -, -, e0, e1, -⟩ := blockIndex t
  match a with
  | ⟨0, _⟩ => show win0_4.index t (0 : Fin 2) * 1024 + 1 * k.val = k.val; omega
  | ⟨1, _⟩ => show win0_4.index t (1 : Fin 2) * 4096 + 1 * j.val = j.val; omega

theorem biasRow_apply (c : Dev nD) (t : Fin cfg0.N) (u : Fin 1) (j : Fin 4096) :
    biasRow m c t (ix2 u j) = V m c main_v6 (ix2 u j) := by
  show V m c main_v6 (((cfg0.win 5).blk t).view.emb (ix2 u j)) = _
  refine congrArg (V m c main_v6) (funext fun a => Fin.ext ?_)
  obtain ⟨-, -, -, -, -, -, -, -, -, -, e0, e1, -⟩ := blockIndex t
  match a with
  | ⟨0, _⟩ => show win0_5.index t (0 : Fin 2) * 1 + 1 * u.val = u.val; omega
  | ⟨1, _⟩ => show win0_5.index t (1 : Fin 2) * 4096 + 1 * j.val = j.val; omega

theorem w1T_apply (c : Dev nD) (t : Fin cfg0.N) (s : Fin 4) (l : Fin 2048) :
    w1T m c t (ix2 s l) = V m c main_v10 (ix2 s l) := by
  show V m c main_v10 (((cfg0.win 6).blk t).view.emb (ix2 s l)) = _
  refine congrArg (V m c main_v10) (funext fun a => Fin.ext ?_)
  obtain ⟨-, -, -, -, -, -, -, -, -, -, -, -, e0, e1, -⟩ := blockIndex t
  match a with
  | ⟨0, _⟩ => show win0_6.index t (0 : Fin 2) * 4 + 1 * s.val = s.val; omega
  | ⟨1, _⟩ => show win0_6.index t (1 : Fin 2) * 2048 + 1 * l.val = l.val; omega

theorem b1Row_apply (c : Dev nD) (t : Fin cfg0.N) (u : Fin 1) (l : Fin 2048) :
    b1Row m c t (ix2 u l) = V m c main_v11 (ix2 u l) := by
  show V m c main_v11 (((cfg0.win 7).blk t).view.emb (ix2 u l)) = _
  refine congrArg (V m c main_v11) (funext fun a => Fin.ext ?_)
  obtain ⟨-, -, -, -, -, -, -, -, -, -, -, -, -, -, e0, e1, -⟩ := blockIndex t
  match a with
  | ⟨0, _⟩ => show win0_7.index t (0 : Fin 2) * 1 + 1 * u.val = u.val; omega
  | ⟨1, _⟩ => show win0_7.index t (1 : Fin 2) * 2048 + 1 * l.val = l.val; omega

theorem w2T_apply (c : Dev nD) (t : Fin cfg0.N) (l j : Fin 2048) :
    w2T m c t (ix2 l j) = V m c main_v13 (ix2 l j) := by
  show V m c main_v13 (((cfg0.win 8).blk t).view.emb (ix2 l j)) = _
  refine congrArg (V m c main_v13) (funext fun a => Fin.ext ?_)
  obtain ⟨-, -, -, -, -, -, -, -, -, -, -, -, -, -, -, -, e0, e1, -⟩ := blockIndex t
  match a with
  | ⟨0, _⟩ => show win0_8.index t (0 : Fin 2) * 2048 + 1 * l.val = l.val; omega
  | ⟨1, _⟩ => show win0_8.index t (1 : Fin 2) * 2048 + 1 * j.val = j.val; omega

theorem b2Row_apply (c : Dev nD) (t : Fin cfg0.N) (u : Fin 1) (j : Fin 2048) :
    b2Row m c t (ix2 u j) = V m c main_v14 (ix2 u j) := by
  show V m c main_v14 (((cfg0.win 9).blk t).view.emb (ix2 u j)) = _
  refine congrArg (V m c main_v14) (funext fun a => Fin.ext ?_)
  obtain ⟨-, -, -, -, -, -, -, -, -, -, -, -, -, -, -, -, -, -, e0, e1, -⟩ := blockIndex t
  match a with
  | ⟨0, _⟩ => show win0_9.index t (0 : Fin 2) * 1 + 1 * u.val = u.val; omega
  | ⟨1, _⟩ => show win0_9.index t (1 : Fin 2) * 2048 + 1 * j.val = j.val; omega

theorem fcwT_apply (c : Dev nD) (t : Fin cfg0.N) (k : Fin 1024) (u : Fin 1) :
    fcwT m c t (ix2 k u) = V m c main_v16 (ix2 k u) := by
  show V m c main_v16 (((cfg0.win 10).blk t).view.emb (ix2 k u)) = _
  refine congrArg (V m c main_v16) (funext fun a => Fin.ext ?_)
  obtain ⟨-, -, -, -, -, -, -, -, -, -, -, -, -, -, -, -, -, -, -, -, e0, e1, -⟩ := blockIndex t
  match a with
  | ⟨0, _⟩ => show win0_10.index t (0 : Fin 2) * 1024 + 1 * k.val = k.val; omega
  | ⟨1, _⟩ => show win0_10.index t (1 : Fin 2) * 1 + 1 * u.val = u.val; omega

theorem fcbCell_apply (c : Dev nD) (t : Fin cfg0.N) (u v : Fin 1) :
    fcbCell m c t (ix2 u v) = V m c main_v17 (ix2 u v) := by
  show V m c main_v17 (((cfg0.win 11).blk t).view.emb (ix2 u v)) = _
  refine congrArg (V m c main_v17) (funext fun a => Fin.ext ?_)
  obtain ⟨-, -, -, -, -, -, -, -, -, -, -, -, -, -, -, -, -, -, -, -, -, -, e0, e1, -⟩ := blockIndex t
  match a with
  | ⟨0, _⟩ => show win0_11.index t (0 : Fin 2) * 1 + 1 * u.val = u.val; omega
  | ⟨1, _⟩ => show win0_11.index t (1 : Fin 2) * 1 + 1 * v.val = v.val; omega

/-- The output's block at point `t` covers rows `64 · t + p`. -/
theorem outIndex (t : Fin cfg0.N) (p : Fin 64) (z : Fin 1) :
    ((cfg0.win 12).blk t).view.emb (ix2 p z) = ix2 (row t p) z := by
  funext a
  apply Fin.ext
  obtain ⟨-, -, -, -, -, -, -, -, -, -, -, -, -, -, -, -, -, -, -, -, -, -, -, -, e0, e1⟩ := blockIndex t
  match a with
  | ⟨0, _⟩ => show win0_12.index t (0 : Fin 2) * 64 + 1 * p.val = t.val * 64 + p.val; omega
  | ⟨1, _⟩ => show win0_12.index t (1 : Fin 2) * 1 + 1 * z.val = z.val; omega

/-! ## The arrays the host wrote before the region -/

theorem hArr_eq (c : Dev nD) : (V m c main_v0 : S32768x1024.Idx → EReal)
    = shapeCast S32768x1024 (m ((c : Thread nD τ).loc main_arg1)) shapeCasts_S1x32768x1024_S32768x1024 := by
  dsimp only [V, hostOps0]; after_results; rfl
theorem cArr_eq (c : Dev nD) : (V m c main_v1 : S32768x1024.Idx → EReal)
    = shapeCast S32768x1024 (m ((c : Thread nD τ).loc main_arg2)) shapeCasts_S1x32768x1024_S32768x1024 := by
  dsimp only [V, hostOps0]; after_results; rfl
theorem wihArr_eq (c : Dev nD) : (V m c main_v4 : S1x4096.Idx → EReal)
    = shapeCast S1x4096 (shapeCast S4096 (m ((c : Thread nD τ).loc main_arg3)) shapeCasts_S4096x1_S4096 : FVec Ideal S4096 .f32) shapeCasts_S4096_S1x4096 := by
  dsimp only [V, hostOps0]; after_results; rfl
theorem whhArr_eq (c : Dev nD) : (V m c main_v8 : S1024x4096.Idx → EReal)
    = transpose S1024x4096 [1, 0] (m ((c : Thread nD τ).loc main_arg4)) transposes_S4096x1024_S1024x4096_1_0 := by
  dsimp only [V, hostOps0]; after_results; rfl
theorem biasArr_eq (c : Dev nD) : (V m c main_v6 : S1x4096.Idx → EReal)
    = shapeCast S1x4096 (addf (m ((c : Thread nD τ).loc main_arg5) : FVec Ideal S4096 .f32) (m ((c : Thread nD τ).loc main_arg6)) : FVec Ideal S4096 .f32) shapeCasts_S4096_S1x4096 := by
  dsimp only [V, hostOps0]; after_results; rfl
theorem w1Arr_eq (c : Dev nD) : (V m c main_v10 : S4x2048.Idx → EReal)
    = transpose S4x2048 [1, 0] (m ((c : Thread nD τ).loc main_arg7)) transposes_S2048x4_S4x2048_1_0 := by
  dsimp only [V, hostOps0]; after_results; rfl
theorem b1Arr_eq (c : Dev nD) : (V m c main_v11 : S1x2048.Idx → EReal)
    = shapeCast S1x2048 (m ((c : Thread nD τ).loc main_arg8)) shapeCasts_S2048_S1x2048 := by
  dsimp only [V, hostOps0]; after_results; rfl
theorem w2Arr_eq (c : Dev nD) : (V m c main_v13 : S2048x2048.Idx → EReal)
    = transpose S2048x2048 [1, 0] (m ((c : Thread nD τ).loc main_arg9)) transposes_S2048x2048_S2048x2048_1_0 := by
  dsimp only [V, hostOps0]; after_results; rfl
theorem b2Arr_eq (c : Dev nD) : (V m c main_v14 : S1x2048.Idx → EReal)
    = shapeCast S1x2048 (m ((c : Thread nD τ).loc main_arg10)) shapeCasts_S2048_S1x2048 := by
  dsimp only [V, hostOps0]; after_results; rfl
theorem fcwArr_eq (c : Dev nD) : (V m c main_v16 : S1024x1.Idx → EReal)
    = transpose S1024x1 [1, 0] (m ((c : Thread nD τ).loc main_arg11)) transposes_S1x1024_S1024x1_1_0 := by
  dsimp only [V, hostOps0]; after_results; rfl
theorem fcbArr_eq (c : Dev nD) : (V m c main_v17 : S1x1.Idx → EReal)
    = shapeCast S1x1 (m ((c : Thread nD τ).loc main_arg12)) shapeCasts_S1_S1x1 := by
  dsimp only [V, hostOps0]; after_results; rfl

/-! ## Each loaded entry as an entry of an argument array -/

theorem xTile_arg (c : Dev nD) (t : Fin cfg0.N) (p : Fin 64) (q : Fin 5) :
    xTile m c t (ix2 p q) = argX m c (ix2 (row t p) q) :=
  (xTile_apply m c t p q).trans (congrFun (V_main_arg0 m c) _)

theorem hTile_arg (c : Dev nD) (t : Fin cfg0.N) (p : Fin 64) (k : Fin 1024) :
    hTile m c t (ix2 p k) = argH m c (ix3 (0 : Fin 1) (row t p) k) :=
  (hTile_apply m c t p k).trans ((congrFun (hArr_eq m c) _).trans (shapeCast_1ab_ab_apply _ _ (row t p) k))

theorem cTile_arg (c : Dev nD) (t : Fin cfg0.N) (p : Fin 64) (k : Fin 1024) :
    cTile m c t (ix2 p k) = argC m c (ix3 (0 : Fin 1) (row t p) k) :=
  (cTile_apply m c t p k).trans ((congrFun (cArr_eq m c) _).trans (shapeCast_1ab_ab_apply _ _ (row t p) k))

/-- The input weights' one column, laid out as a row. -/
theorem wihRow_arg (c : Dev nD) (t : Fin cfg0.N) (j : Fin 4096) :
    wihRow m c t (ix2 (0 : Fin 1) j) = argWih m c (ix2 j (0 : Fin 1)) :=
  (wihRow_apply m c t 0 j).trans ((congrFun (wihArr_eq m c) _).trans
    ((shapeCast_a_1a_apply _ _ (0 : Fin 1) j).trans
      (shapeCast_apply _ shapeCasts_S4096x1_S4096 (ix1 j) (ix2 j (0 : Fin 1)) (by
        rw [Shape.rowMajor_val_two, Shape.rowMajor_val_one]
        show j.val * 1 + 0 = j.val
        omega))))

theorem whhT_arg (c : Dev nD) (t : Fin cfg0.N) (k : Fin 1024) (j : Fin 4096) :
    whhT m c t (ix2 k j) = argWhh m c (ix2 j k) :=
  (whhT_apply m c t k j).trans ((congrFun (whhArr_eq m c) _).trans (transpose_ix2_apply _ _ k j))

/-- The gate bias row is the sum of the two bias vectors. -/
theorem biasRow_arg (c : Dev nD) (t : Fin cfg0.N) (j : Fin 4096) :
    biasRow m c t (ix2 (0 : Fin 1) j) = argBih m c (ix1 j) + argBhh m c (ix1 j) :=
  (biasRow_apply m c t 0 j).trans ((congrFun (biasArr_eq m c) _).trans (shapeCast_a_1a_apply _ _ (0 : Fin 1) j))

theorem w1T_arg (c : Dev nD) (t : Fin cfg0.N) (s : Fin 4) (l : Fin 2048) :
    w1T m c t (ix2 s l) = argW1 m c (ix2 l s) :=
  (w1T_apply m c t s l).trans ((congrFun (w1Arr_eq m c) _).trans (transpose_ix2_apply _ _ s l))

theorem b1Row_arg (c : Dev nD) (t : Fin cfg0.N) (l : Fin 2048) :
    b1Row m c t (ix2 (0 : Fin 1) l) = argB1 m c (ix1 l) :=
  (b1Row_apply m c t 0 l).trans ((congrFun (b1Arr_eq m c) _).trans (shapeCast_a_1a_apply _ _ (0 : Fin 1) l))

theorem w2T_arg (c : Dev nD) (t : Fin cfg0.N) (l j : Fin 2048) :
    w2T m c t (ix2 l j) = argW2 m c (ix2 j l) :=
  (w2T_apply m c t l j).trans ((congrFun (w2Arr_eq m c) _).trans (transpose_ix2_apply _ _ l j))

theorem b2Row_arg (c : Dev nD) (t : Fin cfg0.N) (j : Fin 2048) :
    b2Row m c t (ix2 (0 : Fin 1) j) = argB2 m c (ix1 j) :=
  (b2Row_apply m c t 0 j).trans ((congrFun (b2Arr_eq m c) _).trans (shapeCast_a_1a_apply _ _ (0 : Fin 1) j))

theorem fcwT_arg (c : Dev nD) (t : Fin cfg0.N) (k : Fin 1024) :
    fcwT m c t (ix2 k (0 : Fin 1)) = argFcw m c (ix2 (0 : Fin 1) k) :=
  (fcwT_apply m c t k 0).trans ((congrFun (fcwArr_eq m c) _).trans (transpose_ix2_apply _ _ k (0 : Fin 1)))

theorem fcbCell_arg (c : Dev nD) (t : Fin cfg0.N) :
    fcbCell m c t (ix2 (0 : Fin 1) (0 : Fin 1)) = argFcb m c (ix1 (0 : Fin 1)) :=
  (fcbCell_apply m c t 0 0).trans ((congrFun (fcbArr_eq m c) _).trans (shapeCast_a_1a_apply _ _ (0 : Fin 1) (0 : Fin 1)))

end Cert.KernelIdeal.Tile

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KernelProducts.lean ====
/-
  The kernel body's five matrix products read at an index.

  Each is a plain product of a [M, K] by a [K, N] operand accumulated into zero, so at the ideal values its entry
  `(p, o)` is `∑ k, A (p, k) · B (k, o)`. What is proved per product is where its dimension numbers send an output
  index and a contraction index: the left operand is read at (row of the output, contraction), the right operand
  at (contraction, column of the output).
-/
import proofs.«131633_j76768245448756_1_alg».proof.Proof.Gen.KernelIdeal
import proofs.«131633_j76768245448756_1_alg».proof.Proof.LibPlainMatmul
import Idealize.ShloMosaic.PureOps.Ideal.Laws
import Idealize.ShloMosaic.Lib.ValueIdx

noncomputable section

open scoped BigOperators
open Idealize.ShloMosaic Idealize.ShloMosaic.ValueIdx

namespace Cert.KernelIdeal.Products

open Cert.KernelIdeal Cert.KernelIdeal.Gen

/-! ### the recurrent product: a tile of hidden rows against the transposed recurrent weights -/

theorem lhs_gh_0 (i : S64x4096.Idx) (q : dot_S64x1024_S1024x4096_S64x4096_1_0_0_1_n_n.contr.Idx) :
    (dot_S64x1024_S1024x4096_S64x4096_1_0_0_1_n_n.lhsIdx i q 0).val = (i 0).val := by
  unfold DotDims.lhsIdx
  rw [dif_neg (show ¬(0 : Fin S64x1024.rank) ∈ dot_S64x1024_S1024x4096_S64x4096_1_0_0_1_n_n.lhsBatch by decide), dif_pos (show (0 : Fin S64x1024.rank) ∈ dot_S64x1024_S1024x4096_S64x4096_1_0_0_1_n_n.lhsNonContracting by decide)]
  rfl
theorem lhs_gh_1 (i : S64x4096.Idx) (q : dot_S64x1024_S1024x4096_S64x4096_1_0_0_1_n_n.contr.Idx) :
    (dot_S64x1024_S1024x4096_S64x4096_1_0_0_1_n_n.lhsIdx i q 1).val = (q ⟨0, by decide⟩).val :=
  dot_S64x1024_S1024x4096_S64x4096_1_0_0_1_n_n.lhsIdx_val_of_single rfl i q
theorem rhs_gh_0 (i : S64x4096.Idx) (q : dot_S64x1024_S1024x4096_S64x4096_1_0_0_1_n_n.contr.Idx) :
    (dot_S64x1024_S1024x4096_S64x4096_1_0_0_1_n_n.rhsIdx i q 0).val = (q ⟨0, by decide⟩).val :=
  dot_S64x1024_S1024x4096_S64x4096_1_0_0_1_n_n.rhsIdx_val_of_single rfl i q
theorem rhs_gh_1 (i : S64x4096.Idx) (q : dot_S64x1024_S1024x4096_S64x4096_1_0_0_1_n_n.contr.Idx) :
    (dot_S64x1024_S1024x4096_S64x4096_1_0_0_1_n_n.rhsIdx i q 1).val = (i 1).val := by
  unfold DotDims.rhsIdx
  rw [dif_neg (show ¬(1 : Fin S1024x4096.rank) ∈ dot_S64x1024_S1024x4096_S64x4096_1_0_0_1_n_n.rhsBatch by decide), dif_pos (show (1 : Fin S1024x4096.rank) ∈ dot_S64x1024_S1024x4096_S64x4096_1_0_0_1_n_n.rhsNonContracting by decide)]
  rfl
/-- Into zero, at `(p, o)`: `∑ k, A (p, k) · B (k, o)`. -/
theorem mm_gh (A : FVec Ideal S64x1024 .bf16) (B : FVec Ideal S1024x4096 .bf16) (p : Fin 64) (o : Fin 4096) :
    FloatOps.matmul dot_S64x1024_S1024x4096_S64x4096_1_0_0_1_n_n none A B (constant (F := Ideal) S64x4096 .f32 0x00000000#32) (ix2 p o)
      = ∑ k : Fin 1024, A (ix2 p k) * B (ix2 k o) :=
  Cert.LibPlainMatmul.matmul_zero_apply dot_S64x1024_S1024x4096_S64x4096_1_0_0_1_n_n none rfl rfl lhs_gh_0 lhs_gh_1 rhs_gh_0 rhs_gh_1 A B p o

/-! ### the input product: the signal column against the input weights laid out as one row -/

theorem lhs_gs_0 (i : S64x4096.Idx) (q : dot_S64x1_S1x4096_S64x4096_1_0_0_1_n_n.contr.Idx) :
    (dot_S64x1_S1x4096_S64x4096_1_0_0_1_n_n.lhsIdx i q 0).val = (i 0).val := by
  unfold DotDims.lhsIdx
  rw [dif_neg (show ¬(0 : Fin S64x1.rank) ∈ dot_S64x1_S1x4096_S64x4096_1_0_0_1_n_n.lhsBatch by decide), dif_pos (show (0 : Fin S64x1.rank) ∈ dot_S64x1_S1x4096_S64x4096_1_0_0_1_n_n.lhsNonContracting by decide)]
  rfl
theorem lhs_gs_1 (i : S64x4096.Idx) (q : dot_S64x1_S1x4096_S64x4096_1_0_0_1_n_n.contr.Idx) :
    (dot_S64x1_S1x4096_S64x4096_1_0_0_1_n_n.lhsIdx i q 1).val = (q ⟨0, by decide⟩).val :=
  dot_S64x1_S1x4096_S64x4096_1_0_0_1_n_n.lhsIdx_val_of_single rfl i q
theorem rhs_gs_0 (i : S64x4096.Idx) (q : dot_S64x1_S1x4096_S64x4096_1_0_0_1_n_n.contr.Idx) :
    (dot_S64x1_S1x4096_S64x4096_1_0_0_1_n_n.rhsIdx i q 0).val = (q ⟨0, by decide⟩).val :=
  dot_S64x1_S1x4096_S64x4096_1_0_0_1_n_n.rhsIdx_val_of_single rfl i q
theorem rhs_gs_1 (i : S64x4096.Idx) (q : dot_S64x1_S1x4096_S64x4096_1_0_0_1_n_n.contr.Idx) :
    (dot_S64x1_S1x4096_S64x4096_1_0_0_1_n_n.rhsIdx i q 1).val = (i 1).val := by
  unfold DotDims.rhsIdx
  rw [dif_neg (show ¬(1 : Fin S1x4096.rank) ∈ dot_S64x1_S1x4096_S64x4096_1_0_0_1_n_n.rhsBatch by decide), dif_pos (show (1 : Fin S1x4096.rank) ∈ dot_S64x1_S1x4096_S64x4096_1_0_0_1_n_n.rhsNonContracting by decide)]
  rfl
/-- Into zero, at `(p, o)`: `∑ k, A (p, k) · B (k, o)`. -/
theorem mm_gs (A : FVec Ideal S64x1 .bf16) (B : FVec Ideal S1x4096 .bf16) (p : Fin 64) (o : Fin 4096) :
    FloatOps.matmul dot_S64x1_S1x4096_S64x4096_1_0_0_1_n_n none A B (constant (F := Ideal) S64x4096 .f32 0x00000000#32) (ix2 p o)
      = ∑ k : Fin 1, A (ix2 p k) * B (ix2 k o) :=
  Cert.LibPlainMatmul.matmul_zero_apply dot_S64x1_S1x4096_S64x4096_1_0_0_1_n_n none rfl rfl lhs_gs_0 lhs_gs_1 rhs_gs_0 rhs_gs_1 A B p o

/-! ### the FiLM generator's first layer: the selector columns against its transposed weights -/

theorem lhs_f1_0 (i : S64x2048.Idx) (q : dot_S64x4_S4x2048_S64x2048_1_0_0_1_n_n.contr.Idx) :
    (dot_S64x4_S4x2048_S64x2048_1_0_0_1_n_n.lhsIdx i q 0).val = (i 0).val := by
  unfold DotDims.lhsIdx
  rw [dif_neg (show ¬(0 : Fin S64x4.rank) ∈ dot_S64x4_S4x2048_S64x2048_1_0_0_1_n_n.lhsBatch by decide), dif_pos (show (0 : Fin S64x4.rank) ∈ dot_S64x4_S4x2048_S64x2048_1_0_0_1_n_n.lhsNonContracting by decide)]
  rfl
theorem lhs_f1_1 (i : S64x2048.Idx) (q : dot_S64x4_S4x2048_S64x2048_1_0_0_1_n_n.contr.Idx) :
    (dot_S64x4_S4x2048_S64x2048_1_0_0_1_n_n.lhsIdx i q 1).val = (q ⟨0, by decide⟩).val :=
  dot_S64x4_S4x2048_S64x2048_1_0_0_1_n_n.lhsIdx_val_of_single rfl i q
theorem rhs_f1_0 (i : S64x2048.Idx) (q : dot_S64x4_S4x2048_S64x2048_1_0_0_1_n_n.contr.Idx) :
    (dot_S64x4_S4x2048_S64x2048_1_0_0_1_n_n.rhsIdx i q 0).val = (q ⟨0, by decide⟩).val :=
  dot_S64x4_S4x2048_S64x2048_1_0_0_1_n_n.rhsIdx_val_of_single rfl i q
theorem rhs_f1_1 (i : S64x2048.Idx) (q : dot_S64x4_S4x2048_S64x2048_1_0_0_1_n_n.contr.Idx) :
    (dot_S64x4_S4x2048_S64x2048_1_0_0_1_n_n.rhsIdx i q 1).val = (i 1).val := by
  unfold DotDims.rhsIdx
  rw [dif_neg (show ¬(1 : Fin S4x2048.rank) ∈ dot_S64x4_S4x2048_S64x2048_1_0_0_1_n_n.rhsBatch by decide), dif_pos (show (1 : Fin S4x2048.rank) ∈ dot_S64x4_S4x2048_S64x2048_1_0_0_1_n_n.rhsNonContracting by decide)]
  rfl
/-- Into zero, at `(p, o)`: `∑ k, A (p, k) · B (k, o)`. -/
theorem mm_f1 (A : FVec Ideal S64x4 .bf16) (B : FVec Ideal S4x2048 .bf16) (p : Fin 64) (o : Fin 2048) :
    FloatOps.matmul dot_S64x4_S4x2048_S64x2048_1_0_0_1_n_n none A B (constant (F := Ideal) S64x2048 .f32 0x00000000#32) (ix2 p o)
      = ∑ k : Fin 4, A (ix2 p k) * B (ix2 k o) :=
  Cert.LibPlainMatmul.matmul_zero_apply dot_S64x4_S4x2048_S64x2048_1_0_0_1_n_n none rfl rfl lhs_f1_0 lhs_f1_1 rhs_f1_0 rhs_f1_1 A B p o

/-! ### the FiLM generator's second layer -/

theorem lhs_f2_0 (i : S64x2048.Idx) (q : dot_S64x2048_S2048x2048_S64x2048_1_0_0_1_n_n.contr.Idx) :
    (dot_S64x2048_S2048x2048_S64x2048_1_0_0_1_n_n.lhsIdx i q 0).val = (i 0).val := by
  unfold DotDims.lhsIdx
  rw [dif_neg (show ¬(0 : Fin S64x2048.rank) ∈ dot_S64x2048_S2048x2048_S64x2048_1_0_0_1_n_n.lhsBatch by decide), dif_pos (show (0 : Fin S64x2048.rank) ∈ dot_S64x2048_S2048x2048_S64x2048_1_0_0_1_n_n.lhsNonContracting by decide)]
  rfl
theorem lhs_f2_1 (i : S64x2048.Idx) (q : dot_S64x2048_S2048x2048_S64x2048_1_0_0_1_n_n.contr.Idx) :
    (dot_S64x2048_S2048x2048_S64x2048_1_0_0_1_n_n.lhsIdx i q 1).val = (q ⟨0, by decide⟩).val :=
  dot_S64x2048_S2048x2048_S64x2048_1_0_0_1_n_n.lhsIdx_val_of_single rfl i q
theorem rhs_f2_0 (i : S64x2048.Idx) (q : dot_S64x2048_S2048x2048_S64x2048_1_0_0_1_n_n.contr.Idx) :
    (dot_S64x2048_S2048x2048_S64x2048_1_0_0_1_n_n.rhsIdx i q 0).val = (q ⟨0, by decide⟩).val :=
  dot_S64x2048_S2048x2048_S64x2048_1_0_0_1_n_n.rhsIdx_val_of_single rfl i q
theorem rhs_f2_1 (i : S64x2048.Idx) (q : dot_S64x2048_S2048x2048_S64x2048_1_0_0_1_n_n.contr.Idx) :
    (dot_S64x2048_S2048x2048_S64x2048_1_0_0_1_n_n.rhsIdx i q 1).val = (i 1).val := by
  unfold DotDims.rhsIdx
  rw [dif_neg (show ¬(1 : Fin S2048x2048.rank) ∈ dot_S64x2048_S2048x2048_S64x2048_1_0_0_1_n_n.rhsBatch by decide), dif_pos (show (1 : Fin S2048x2048.rank) ∈ dot_S64x2048_S2048x2048_S64x2048_1_0_0_1_n_n.rhsNonContracting by decide)]
  rfl
/-- Into zero, at `(p, o)`: `∑ k, A (p, k) · B (k, o)`. -/
theorem mm_f2 (A : FVec Ideal S64x2048 .bf16) (B : FVec Ideal S2048x2048 .bf16) (p : Fin 64) (o : Fin 2048) :
    FloatOps.matmul dot_S64x2048_S2048x2048_S64x2048_1_0_0_1_n_n none A B (constant (F := Ideal) S64x2048 .f32 0x00000000#32) (ix2 p o)
      = ∑ k : Fin 2048, A (ix2 p k) * B (ix2 k o) :=
  Cert.LibPlainMatmul.matmul_zero_apply dot_S64x2048_S2048x2048_S64x2048_1_0_0_1_n_n none rfl rfl lhs_f2_0 lhs_f2_1 rhs_f2_0 rhs_f2_1 A B p o

/-! ### the head: a tile of modulated rows against the head's weight column -/

theorem lhs_hd_0 (i : S64x1.Idx) (q : dot_S64x1024_S1024x1_S64x1_1_0_0_1_n_n.contr.Idx) :
    (dot_S64x1024_S1024x1_S64x1_1_0_0_1_n_n.lhsIdx i q 0).val = (i 0).val := by
  unfold DotDims.lhsIdx
  rw [dif_neg (show ¬(0 : Fin S64x1024.rank) ∈ dot_S64x1024_S1024x1_S64x1_1_0_0_1_n_n.lhsBatch by decide), dif_pos (show (0 : Fin S64x1024.rank) ∈ dot_S64x1024_S1024x1_S64x1_1_0_0_1_n_n.lhsNonContracting by decide)]
  rfl
theorem lhs_hd_1 (i : S64x1.Idx) (q : dot_S64x1024_S1024x1_S64x1_1_0_0_1_n_n.contr.Idx) :
    (dot_S64x1024_S1024x1_S64x1_1_0_0_1_n_n.lhsIdx i q 1).val = (q ⟨0, by decide⟩).val :=
  dot_S64x1024_S1024x1_S64x1_1_0_0_1_n_n.lhsIdx_val_of_single rfl i q
theorem rhs_hd_0 (i : S64x1.Idx) (q : dot_S64x1024_S1024x1_S64x1_1_0_0_1_n_n.contr.Idx) :
    (dot_S64x1024_S1024x1_S64x1_1_0_0_1_n_n.rhsIdx i q 0).val = (q ⟨0, by decide⟩).val :=
  dot_S64x1024_S1024x1_S64x1_1_0_0_1_n_n.rhsIdx_val_of_single rfl i q
theorem rhs_hd_1 (i : S64x1.Idx) (q : dot_S64x1024_S1024x1_S64x1_1_0_0_1_n_n.contr.Idx) :
    (dot_S64x1024_S1024x1_S64x1_1_0_0_1_n_n.rhsIdx i q 1).val = (i 1).val := by
  unfold DotDims.rhsIdx
  rw [dif_neg (show ¬(1 : Fin S1024x1.rank) ∈ dot_S64x1024_S1024x1_S64x1_1_0_0_1_n_n.rhsBatch by decide), dif_pos (show (1 : Fin S1024x1.rank) ∈ dot_S64x1024_S1024x1_S64x1_1_0_0_1_n_n.rhsNonContracting by decide)]
  rfl
/-- Into zero, at `(p, o)`: `∑ k, A (p, k) · B (k, o)`. -/
theorem mm_hd (A : FVec Ideal S64x1024 .bf16) (B : FVec Ideal S1024x1 .bf16) (p : Fin 64) (o : Fin 1) :
    FloatOps.matmul dot_S64x1024_S1024x1_S64x1_1_0_0_1_n_n none A B (constant (F := Ideal) S64x1 .f32 0x00000000#32) (ix2 p o)
      = ∑ k : Fin 1024, A (ix2 p k) * B (ix2 k o) :=
  Cert.LibPlainMatmul.matmul_zero_apply dot_S64x1024_S1024x1_S64x1_1_0_0_1_n_n none rfl rfl lhs_hd_0 lhs_hd_1 rhs_hd_0 rhs_hd_1 A B p o

end Cert.KernelIdeal.Products

end
-- ==== Proof.Spec.lean ====
/-
  One batch row of a single-step LSTM cell whose hidden state is modulated by a FiLM generator and read by a linear head,
  as functions on the extended reals.

  For a row with signal `xs`, selector entries `sel`, previous hidden row `h` and previous cell row `c`:
    gate j        = xs · W_ih[j] + b_ih[j] + Σ_k h[k] · W_hh[j,k] + b_hh[j]          (j over the four stacked gates)
    cell k        = σ(gate[1024+k]) · c[k] + σ(gate[k]) · tanh(gate[2048+k])
    hidden k      = σ(gate[3072+k]) · tanh(cell k)
    filmHidden l  = max(Σ_s sel[s] · W1[l,s] + b1[l], 0)
    film j        = Σ_l filmHidden[l] · W2[j,l] + b2[j]
    modulated k   = film[k] · hidden[k] + film[1024+k]
    head          = Σ_k modulated[k] · w[k] + b
  with σ the logistic function `1 / (1 + e^(-z))`.

  The gate pre-activation is stated in two groupings of the same four summands: one adds the two biases one after the
  other around the recurrent product, the other adds the recurrent and input products first and then a bias that was
  summed beforehand. Addition of extended reals is commutative and associative, so the two agree everywhere, with no
  finiteness assumption (`gateFused_eq`).
-/
import Idealize.ShloMosaic.PureOps.Ideal.Laws
import Idealize.ShloMosaic.Lib.ValueIdx

noncomputable section

open scoped BigOperators
open Idealize.ShloMosaic Idealize.ShloMosaic.ValueIdx

namespace Cert.LstmRow

/-- Column `o + k` of the axis that stacks the four gates. -/
def gcol (o : ℕ) (ho : o + 1024 ≤ 4096) (k : Fin 1024) : Fin 4096 := ⟨o + k.val, by have := k.isLt; omega⟩
/-- Column `o + k` of the axis that stacks the FiLM scale and shift. -/
def fcol (o : ℕ) (ho : o + 1024 ≤ 2048) (k : Fin 1024) : Fin 2048 := ⟨o + k.val, by have := k.isLt; omega⟩
/-- The selector's entry `s` sits in column `1 + s` of the input row (column 0 is the signal). -/
def selCol (s : Fin 4) : Fin 5 := ⟨1 + s.val, by have := s.isLt; omega⟩

/-- The bit pattern of the float `1.0` denotes the extended real `1`. -/
theorem one_f32 : Ideal.ofBits .f32 0x3F800000#32 = 1 := by
  simp [Ideal.ofBits, Ideal.ieee, -EReal.coe_mul]; norm_num

/-- Gate pre-activation `j`, the biases added one after the other around the recurrent product. -/
def gateSplit (xs : EReal) (h : Fin 1024 → EReal) (wih : Fin 4096 → EReal) (whh : Fin 4096 → Fin 1024 → EReal)
    (bih bhh : Fin 4096 → EReal) (j : Fin 4096) : EReal :=
  ((xs * wih j + bih j) + ∑ k : Fin 1024, h k * whh j k) + bhh j

/-- Gate pre-activation `j`, the two products first and then one bias `bsum`. -/
def gateFused (xs : EReal) (h : Fin 1024 → EReal) (wih : Fin 4096 → EReal) (whh : Fin 4096 → Fin 1024 → EReal)
    (bsum : Fin 4096 → EReal) (j : Fin 4096) : EReal :=
  (∑ k : Fin 1024, h k * whh j k + xs * wih j) + bsum j

/-- With `bsum = b_ih + b_hh` the two groupings are the same sum of four terms. -/
theorem gateFused_eq (xs : EReal) (h : Fin 1024 → EReal) (wih : Fin 4096 → EReal) (whh : Fin 4096 → Fin 1024 → EReal)
    (bih bhh : Fin 4096 → EReal) (j : Fin 4096) :
    gateFused xs h wih whh (fun j => bih j + bhh j) j = gateSplit xs h wih whh bih bhh j := by
  unfold gateFused gateSplit
  generalize (∑ k : Fin 1024, h k * whh j k) = r
  generalize xs * wih j = a
  -- (r + a) + (p + q) = ((a + p) + r) + q
  rw [add_comm r a, add_assoc a r, ← add_assoc r, add_comm r (bih j), add_assoc (bih j), ← add_assoc a, ← add_assoc (a + bih j)]

/-- The new hidden entry `k` from the four gates `g` and the previous cell row `c`. -/
def cellOut (g : Fin 4096 → EReal) (c : Fin 1024 → EReal) (k : Fin 1024) : EReal :=
  Ideal.logistic (g (gcol 3072 (by norm_num) k))
    * Ideal.tanh (Ideal.logistic (g (gcol 1024 (by norm_num) k)) * c k
        + Ideal.logistic (g (gcol 0 (by norm_num) k)) * Ideal.tanh (g (gcol 2048 (by norm_num) k)))

/-- The FiLM generator's hidden entry `l`: the rectified affine image of the selector. -/
def filmHidden (sel : Fin 4 → EReal) (w1 : Fin 2048 → Fin 4 → EReal) (b1 : Fin 2048 → EReal) (l : Fin 2048) : EReal :=
  max (∑ s : Fin 4, sel s * w1 l s + b1 l) (Ideal.ofBits .f32 0x00000000#32)

/-- The FiLM generator's output entry `j`. -/
def film (hid : Fin 2048 → EReal) (w2 : Fin 2048 → Fin 2048 → EReal) (b2 : Fin 2048 → EReal) (j : Fin 2048) : EReal :=
  ∑ l : Fin 2048, hid l * w2 j l + b2 j

/-- The hidden entry `k` scaled by the first half of the FiLM output and shifted by the second. -/
def modulated (fm : Fin 2048 → EReal) (hn : Fin 1024 → EReal) (k : Fin 1024) : EReal :=
  fm (fcol 0 (by norm_num) k) * hn k + fm (fcol 1024 (by norm_num) k)

/-- The linear head on a modulated row. -/
def head (hm : Fin 1024 → EReal) (w : Fin 1024 → EReal) (b : EReal) : EReal :=
  ∑ k : Fin 1024, hm k * w k + b

/-- One row's output from the row's data and the parameters. -/
def rowOut (xs : EReal) (sel : Fin 4 → EReal) (h c : Fin 1024 → EReal) (wih : Fin 4096 → EReal)
    (whh : Fin 4096 → Fin 1024 → EReal) (bih bhh : Fin 4096 → EReal) (w1 : Fin 2048 → Fin 4 → EReal) (b1 : Fin 2048 → EReal)
    (w2 : Fin 2048 → Fin 2048 → EReal) (b2 : Fin 2048 → EReal) (fcw : Fin 1024 → EReal) (fcb : EReal) : EReal :=
  head (modulated (film (filmHidden sel w1 b1) w2 b2) (cellOut (gateSplit xs h wih whh bih bhh) c)) fcw fcb

/-- The whole result, index by index, from the thirteen argument arrays in their own layouts: row `i 0` of the batch. -/
def result (x : (⟨2, ![32768, 5]⟩ : Shape).Idx → EReal) (h0 c0 : (⟨3, ![1, 32768, 1024]⟩ : Shape).Idx → EReal)
    (Wih : (⟨2, ![4096, 1]⟩ : Shape).Idx → EReal) (Whh : (⟨2, ![4096, 1024]⟩ : Shape).Idx → EReal)
    (bih bhh : (⟨1, ![4096]⟩ : Shape).Idx → EReal) (W1 : (⟨2, ![2048, 4]⟩ : Shape).Idx → EReal)
    (b1 : (⟨1, ![2048]⟩ : Shape).Idx → EReal) (W2 : (⟨2, ![2048, 2048]⟩ : Shape).Idx → EReal)
    (b2 : (⟨1, ![2048]⟩ : Shape).Idx → EReal) (fcW : (⟨2, ![1, 1024]⟩ : Shape).Idx → EReal)
    (fcb : (⟨1, ![1]⟩ : Shape).Idx → EReal) : (⟨2, ![32768, 1]⟩ : Shape).Idx → EReal := fun i =>
  rowOut (x (ix2 (i 0) (0 : Fin 5))) (fun s => x (ix2 (i 0) (selCol s)))
    (fun k => h0 (ix3 (0 : Fin 1) (i 0) k)) (fun k => c0 (ix3 (0 : Fin 1) (i 0) k))
    (fun j => Wih (ix2 j (0 : Fin 1))) (fun j k => Whh (ix2 j k)) (fun j => bih (ix1 j)) (fun j => bhh (ix1 j))
    (fun l s => W1 (ix2 l s)) (fun l => b1 (ix1 l)) (fun j l => W2 (ix2 j l)) (fun j => b2 (ix1 j))
    (fun k => fcW (ix2 (0 : Fin 1) k)) (fcb (ix1 (0 : Fin 1)))

end Cert.LstmRow

end
-- ==== Proof.KernelRow.lean ====
/-
  What the kernel body computes for one row of its tile, in terms of the row functions.

  The body's arithmetic is four pure terms of the blocks it loads: the new hidden tile (gates, cell update, output gate), the
  FiLM generator's first product, its first bias row, and the stored result (FiLM hidden layer, second layer, modulation,
  head). Each is read here at one index. A slice of the gate axis at offset `o` reads column `o + k`; a [1, n] bias row
  broadcast over the tile reads its one row; a change of float format is the identity at the ideal values; a matrix
  product is its plain sum. What remains is, entry by entry, the row functions applied to the rows of the loaded blocks.
-/
import proofs.«131633_j76768245448756_1_alg».proof.Proof.Gen.KernelIdeal.Skeleton
import proofs.«131633_j76768245448756_1_alg».proof.Proof.KernelProducts
import proofs.«131633_j76768245448756_1_alg».proof.Proof.Spec
import Idealize.ShloMosaic.Lib.Pipeline.Value
import Idealize.ShloMosaic.Lib.ValueLayout

noncomputable section

open scoped BigOperators
open Idealize.ShloMosaic Idealize.ShloMosaic.ValueIdx Idealize.SL.Sem

namespace Cert.KernelIdeal.Row

open Cert.KernelIdeal Cert.KernelIdeal.Gen Cert.KernelIdeal.Products Cert.LstmRow

/-! ## Slices of the stacked axes -/

/-- A width-1024 slice of the four-gate axis at offset `o` reads column `o + k`. -/
theorem slice_gate (o : ℕ) (ho : o + 1024 ≤ 4096) (x : S64x4096.Idx → EReal) (h : S64x4096.Slices ![0, o] S64x1024)
    (p : Fin 64) (k : Fin 1024) :
    extractStridedSlice S64x1024 ![0, o] x h (ix2 p k) = x (ix2 p (gcol o ho k)) :=
  extractStridedSlice_apply ![0, o] x h (ix2 p k) (ix2 p (gcol o ho k)) (fun a => match a with
    | ⟨0, _⟩ => by show p.val = 0 + p.val; omega
    | ⟨1, _⟩ => by show o + k.val = o + k.val; rfl)

/-- A width-1024 slice of the FiLM axis at offset `o` reads column `o + k`. -/
theorem slice_film (o : ℕ) (ho : o + 1024 ≤ 2048) (x : S64x2048.Idx → EReal) (h : S64x2048.Slices ![0, o] S64x1024)
    (p : Fin 64) (k : Fin 1024) :
    extractStridedSlice S64x1024 ![0, o] x h (ix2 p k) = x (ix2 p (fcol o ho k)) :=
  extractStridedSlice_apply ![0, o] x h (ix2 p k) (ix2 p (fcol o ho k)) (fun a => match a with
    | ⟨0, _⟩ => by show p.val = 0 + p.val; omega
    | ⟨1, _⟩ => by show o + k.val = o + k.val; rfl)

/-! ## The gates on one tile -/

/-- The four gates' pre-activations over a tile, from the loaded blocks: the recurrent product plus the input product,
    plus the bias row. -/
def tileGates (v0 : Vec Ideal S64x1024 .f32) (v4 : Vec Ideal S64x1 .f32) (v7 : Vec Ideal S1024x4096 .bf16)
    (v11 : Vec Ideal S1x4096 .bf16) (v15 : Vec Ideal S1x4096 .f32) : FVec Ideal S64x4096 .f32 :=
  addf (addf
      (matmul dot_S64x1024_S1024x4096_S64x4096_1_0_0_1_n_n none
        (truncf .bf16 (shapeCast S64x1024 v0 shapeCasts_S64x1024_S64x1024 : FVec Ideal S64x1024 .f32) bitsLt_bf16_f32 : FVec Ideal S64x1024 .bf16)
        (shapeCast S1024x4096 v7 shapeCasts_S1024x4096_S1024x4096 : FVec Ideal S1024x4096 .bf16) (constant S64x4096 .f32 0x00000000#32))
      (matmul dot_S64x1_S1x4096_S64x4096_1_0_0_1_n_n none (truncf .bf16 (v4 : FVec Ideal S64x1 .f32) bitsLt_bf16_f32 : FVec Ideal S64x1 .bf16)
        (shapeCast S1x4096 v11 shapeCasts_S1x4096_S1x4096 : FVec Ideal S1x4096 .bf16) (constant S64x4096 .f32 0x00000000#32)))
    (broadcastTo S64x4096 (shapeCast S1x4096 v15 shapeCasts_S1x4096_S1x4096 : FVec Ideal S1x4096 .f32) broadcasts_S1x4096_S64x4096)

/-- Entry `(p, j)` of the tile's gates is row `p`'s gate `j`, products first and the summed bias last. -/
theorem tileGates_apply (v0 : Vec Ideal S64x1024 .f32) (v4 : Vec Ideal S64x1 .f32) (v7 : Vec Ideal S1024x4096 .bf16)
    (v11 : Vec Ideal S1x4096 .bf16) (v15 : Vec Ideal S1x4096 .f32) (p : Fin 64) (j : Fin 4096) :
    tileGates v0 v4 v7 v11 v15 (ix2 p j)
      = gateFused (v4 (ix2 p (0 : Fin 1))) (fun k => v0 (ix2 p k)) (fun j => v11 (ix2 (0 : Fin 1) j))
          (fun j k => v7 (ix2 k j)) (fun j => v15 (ix2 (0 : Fin 1) j)) j := by
  unfold tileGates gateFused
  rw [addf_apply, addf_apply]
  refine congrArg₂ (· + ·) (congrArg₂ (· + ·) ?_ ?_) ?_
  · refine (mm_gh _ _ p j).trans ?_
    rw [shapeCast_self, shapeCast_self]
    rfl
  · refine (mm_gs _ _ p j).trans ?_
    rw [shapeCast_self, Fin.sum_univ_one]
    rfl
  · refine (broadcastTo_1b_ab_apply _ _ p j).trans ?_
    rw [shapeCast_self]

/-! ## The payloads at an index -/

/-- The new hidden tile at `(p, k)`: row `p`'s hidden entry `k` from its gates and its previous cell row. -/
theorem hidden_apply (v0 v2 : Vec Ideal S64x1024 .f32) (v4 : Vec Ideal S64x1 .f32) (v7 : Vec Ideal S1024x4096 .bf16)
    (v11 : Vec Ideal S1x4096 .bf16) (v15 : Vec Ideal S1x4096 .f32) (p : Fin 64) (k : Fin 1024) :
    k0_pay2 (F := Ideal) v0 v2 v4 v7 v11 v15 (ix2 p k)
      = cellOut (gateFused (v4 (ix2 p (0 : Fin 1))) (fun k => v0 (ix2 p k)) (fun j => v11 (ix2 (0 : Fin 1) j))
          (fun j k => v7 (ix2 k j)) (fun j => v15 (ix2 (0 : Fin 1) j))) (fun k => v2 (ix2 p k)) k := by
  have hg : ∀ j, tileGates v0 v4 v7 v11 v15 (ix2 p j) = _ := tileGates_apply v0 v4 v7 v11 v15 p
  unfold cellOut
  rw [← hg, ← hg, ← hg, ← hg]
  show (mulf (logistic (extractStridedSlice S64x1024 ![0, 3072] (tileGates v0 v4 v7 v11 v15) slices_S64x4096_o0_3072_S64x1024))
      (tanh (addf (mulf (logistic (extractStridedSlice S64x1024 ![0, 1024] (tileGates v0 v4 v7 v11 v15) slices_S64x4096_o0_1024_S64x1024))
          (shapeCast S64x1024 v2 shapeCasts_S64x1024_S64x1024))
        (mulf (logistic (extractStridedSlice S64x1024 ![0, 0] (tileGates v0 v4 v7 v11 v15) slices_S64x4096_o0_0_S64x1024))
          (tanh (extractStridedSlice S64x1024 ![0, 2048] (tileGates v0 v4 v7 v11 v15) slices_S64x4096_o0_2048_S64x1024)))))) (ix2 p k) = _
  show Ideal.logistic (extractStridedSlice S64x1024 ![0, 3072] (tileGates v0 v4 v7 v11 v15) slices_S64x4096_o0_3072_S64x1024 (ix2 p k))
      * Ideal.tanh (Ideal.logistic (extractStridedSlice S64x1024 ![0, 1024] (tileGates v0 v4 v7 v11 v15) slices_S64x4096_o0_1024_S64x1024 (ix2 p k))
            * shapeCast S64x1024 v2 shapeCasts_S64x1024_S64x1024 (ix2 p k)
          + Ideal.logistic (extractStridedSlice S64x1024 ![0, 0] (tileGates v0 v4 v7 v11 v15) slices_S64x4096_o0_0_S64x1024 (ix2 p k))
            * Ideal.tanh (extractStridedSlice S64x1024 ![0, 2048] (tileGates v0 v4 v7 v11 v15) slices_S64x4096_o0_2048_S64x1024 (ix2 p k))) = _
  rw [slice_gate 3072 (by norm_num), slice_gate 1024 (by norm_num), slice_gate 0 (by norm_num), slice_gate 2048 (by norm_num),
    shapeCast_self]

/-- The FiLM generator's first product at `(p, l)`: the selector columns of row `p` against the weights' row `l`. -/
theorem filmFirst_apply (v5 : Vec Ideal S64x4 .f32) (v33 : Vec Ideal S4x2048 .bf16) (p : Fin 64) (l : Fin 2048) :
    k0_pay3 (F := Ideal) v5 v33 (ix2 p l) = ∑ s : Fin 4, v5 (ix2 p s) * v33 (ix2 s l) := by
  unfold k0_pay3
  refine (mm_f1 _ _ p l).trans ?_
  rw [shapeCast_self]
  rfl

/-- The FiLM generator's first bias row is the loaded row. -/
theorem filmBias_eq (v36 : Vec Ideal S1x2048 .f32) : k0_pay4 (F := Ideal) v36 = v36 := by
  unfold k0_pay4
  exact shapeCast_self _ _

/-- The stored tile at `(p, z)`: the head on row `p`'s modulated hidden row, the FiLM output computed from the rectified
    first layer `max (v35 (p, l) + v37 (0, l)) 0`. -/
theorem stored_apply (v31 : FVec Ideal S64x1024 .f32) (v35 : FVec Ideal S64x2048 .f32) (v37 : FVec Ideal S1x2048 .f32)
    (v43 : Vec Ideal S2048x2048 .bf16) (v46 : Vec Ideal S1x2048 .f32) (v55 : Vec Ideal S1024x1 .bf16) (v58 : Vec Ideal S1x1 .f32)
    (p : Fin 64) (z : Fin 1) :
    k0_pay1 (F := Ideal) v31 v35 v37 v43 v46 v55 v58 (ix2 p z)
      = head (modulated
            (film (fun l => max (v35 (ix2 p l) + v37 (ix2 (0 : Fin 1) l)) (Ideal.ofBits .f32 0x00000000#32))
              (fun j l => v43 (ix2 l j)) (fun j => v46 (ix2 (0 : Fin 1) j)))
            (fun k => v31 (ix2 p k)))
          (fun k => v55 (ix2 k (0 : Fin 1))) (v58 (ix2 (0 : Fin 1) (0 : Fin 1))) := by
  obtain rfl : z = 0 := Subsingleton.elim z 0
  -- the FiLM output over the tile
  have hfilm : ∀ j : Fin 2048,
      addf (matmul dot_S64x2048_S2048x2048_S64x2048_1_0_0_1_n_n none
          (truncf .bf16 (maximumf (addf v35 (broadcastTo S64x2048 v37 broadcasts_S1x2048_S64x2048))
            (broadcast S64x2048 (Scalar.ofBits (F := Ideal) .f32 0x00000000#32)) : FVec Ideal S64x2048 .f32) bitsLt_bf16_f32 : FVec Ideal S64x2048 .bf16)
          (shapeCast S2048x2048 v43 shapeCasts_S2048x2048_S2048x2048 : FVec Ideal S2048x2048 .bf16) (constant S64x2048 .f32 0x00000000#32))
        (broadcastTo S64x2048 (shapeCast S1x2048 v46 shapeCasts_S1x2048_S1x2048 : FVec Ideal S1x2048 .f32) broadcasts_S1x2048_S64x2048) (ix2 p j)
      = film (fun l => max (v35 (ix2 p l) + v37 (ix2 (0 : Fin 1) l)) (Ideal.ofBits .f32 0x00000000#32))
          (fun j l => v43 (ix2 l j)) (fun j => v46 (ix2 (0 : Fin 1) j)) j := by
    intro j
    unfold film
    rw [addf_apply]
    refine congrArg₂ (· + ·) ?_ ?_
    · refine (mm_f2 _ _ p j).trans ?_
      rw [shapeCast_self]
      refine Finset.sum_congr rfl fun l _ => ?_
      refine congrArg (· * v43 (ix2 l j)) ?_
      show max (v35 (ix2 p l) + broadcastTo S64x2048 v37 broadcasts_S1x2048_S64x2048 (ix2 p l)) (Ideal.ofBits .f32 0x00000000#32) = _
      rw [broadcastTo_1b_ab_apply]
    · refine (broadcastTo_1b_ab_apply _ _ p j).trans ?_
      rw [shapeCast_self]
  unfold k0_pay1 head modulated
  dsimp only
  rw [addf_apply]
  refine congrArg₂ (· + ·) ?_ ?_
  · refine (mm_hd _ _ p 0).trans ?_
    refine Finset.sum_congr rfl fun k _ => ?_
    refine congrArg₂ (· * ·) ?_ (congrFun (shapeCast_self v55 shapeCasts_S1024x1_S1024x1) (ix2 k (0 : Fin 1)))
    rw [← hfilm, ← hfilm]
    show extractStridedSlice S64x1024 ![0, 0] (_ : FVec Ideal S64x2048 .f32) slices_S64x2048_o0_0_S64x1024 (ix2 p k) * v31 (ix2 p k)
        + extractStridedSlice S64x1024 ![0, 1024] (_ : FVec Ideal S64x2048 .f32) slices_S64x2048_o0_1024_S64x1024 (ix2 p k) = _
    rw [slice_film 0 (by norm_num), slice_film 1024 (by norm_num)]
  · refine (broadcastTo_1b_ab_apply _ _ p 0).trans ?_
    rw [shapeCast_self]

end Cert.KernelIdeal.Row

end
-- ==== Proof.KernelValue.lean ====
/-
  The kernel's result array is the specified function of the arguments.

  At grid point `t` the body stores, for each row `p` of its tile, the head of the modulated hidden row computed from the
  tile's row `p` and the parameter blocks. Those loaded entries are entries of the argument arrays at batch row
  `64 · t + p`; the gate bias the body reads is the sum of the two bias vectors, which regroups into the gate with the
  biases added separately. So what point `t` writes back is block `t` of the specified result. The 512 blocks of 64 rows
  tile the 32768 rows (row `r` lies in block `r / 64`), so after the run the whole array is the specified result.
-/
import proofs.«131633_j76768245448756_1_alg».proof.Proof.KernelLeaves
import proofs.«131633_j76768245448756_1_alg».proof.Proof.KernelRow

noncomputable section

open scoped BigOperators
open Idealize.ShloMosaic Idealize.ShloMosaic.ValueIdx Idealize.ShloMosaic.TcCoe Idealize.SL.Sem
open Idealize.ShloMosaic.Pipeline (Dat)

namespace Cert.KernelIdeal.Tile

open Cert.KernelIdeal Cert.KernelIdeal.Gen Cert.KernelIdeal.Row Cert.LstmRow

variable (m : (ℓ : Loc nD τ sig) → Buf (Elt Ideal) ℓ) (ρ : Dev nD → PrngReg)

/-- The specified result of the arguments as launched on core `c`. -/
abbrev resultOf (c : Dev nD) : FVec Ideal S32768x1 .f32 := result (argX m c) (argH m c) (argC m c) (argWih m c) (argWhh m c) (argBih m c) (argBhh m c) (argW1 m c) (argB1 m c) (argW2 m c) (argB2 m c) (argFcw m c) (argFcb m c)

/-! ## The two column slices of the input tile -/

/-- The signal column of the tile. -/
theorem ld_signal (X : Vec Ideal S64x5 .f32) (p : Fin 64) : View.ld X r0_1 (ix2 p (0 : Fin 1)) = X (ix2 p (0 : Fin 5)) :=
  congrArg X (funext fun a => Fin.ext (by
    match a with
    | ⟨0, _⟩ => show 0 + 1 * p.val = p.val; omega
    | ⟨1, _⟩ => rfl))

/-- The selector columns of the tile. -/
theorem ld_selector (X : Vec Ideal S64x5 .f32) (p : Fin 64) (s : Fin 4) : View.ld X r0_2 (ix2 p s) = X (ix2 p (selCol s)) :=
  congrArg X (funext fun a => Fin.ext (by
    match a with
    | ⟨0, _⟩ => show 0 + 1 * p.val = p.val; omega
    | ⟨1, _⟩ => show 1 + 1 * s.val = 1 + s.val; omega))

/-! ## One row of one tile -/

/-- Row `p`'s gates from the loaded blocks are batch row `64 · t + p`'s gates from the arguments. -/
theorem tileGate_eq (c : Dev nD) (t : Fin cfg0.N) (p : Fin 64) :
    gateFused (View.ld (xTile m c t) r0_1 (ix2 p (0 : Fin 1))) (fun k => hTile m c t (ix2 p k))
        (fun j => wihRow m c t (ix2 (0 : Fin 1) j)) (fun j k => whhT m c t (ix2 k j)) (fun j => biasRow m c t (ix2 (0 : Fin 1) j))
      = gateSplit (argX m c (ix2 (row t p) (0 : Fin 5))) (fun k => argH m c (ix3 (0 : Fin 1) (row t p) k))
          (fun j => argWih m c (ix2 j (0 : Fin 1))) (fun j k => argWhh m c (ix2 j k))
          (fun j => argBih m c (ix1 j)) (fun j => argBhh m c (ix1 j)) := by
  funext j
  rw [← gateFused_eq]
  have e0 : View.ld (xTile m c t) r0_1 (ix2 p (0 : Fin 1)) = argX m c (ix2 (row t p) (0 : Fin 5)) :=
    (ld_signal (xTile m c t) p).trans (xTile_arg m c t p 0)
  have e1 : (fun k => hTile m c t (ix2 p k)) = fun k => argH m c (ix3 (0 : Fin 1) (row t p) k) :=
    funext fun k => hTile_arg m c t p k
  have e2 : (fun j => wihRow m c t (ix2 (0 : Fin 1) j)) = fun j => argWih m c (ix2 j (0 : Fin 1)) :=
    funext fun j => wihRow_arg m c t j
  have e3 : (fun j k => whhT m c t (ix2 k j)) = fun j k => argWhh m c (ix2 j k) :=
    funext fun j => funext fun k => whhT_arg m c t k j
  have e4 : (fun j => biasRow m c t (ix2 (0 : Fin 1) j)) = fun j => argBih m c (ix1 j) + argBhh m c (ix1 j) :=
    funext fun j => biasRow_arg m c t j
  rw [e0, e1, e2, e3, e4]

/-- Row `p`'s rectified first FiLM layer from the loaded blocks. -/
theorem tileHidden_eq (c : Dev nD) (t : Fin cfg0.N) (p : Fin 64) :
    (fun l => max (k0_pay3 (F := Ideal) (View.ld (xTile m c t) r0_2) (w1T m c t) (ix2 p l) + b1Row m c t (ix2 (0 : Fin 1) l))
        (Ideal.ofBits .f32 0x00000000#32))
      = filmHidden (fun s => argX m c (ix2 (row t p) (selCol s))) (fun l s => argW1 m c (ix2 l s)) (fun l => argB1 m c (ix1 l)) := by
  funext l
  unfold filmHidden
  refine congrArg (max · (Ideal.ofBits .f32 0x00000000#32)) ?_
  refine congrArg₂ (· + ·) ?_ (b1Row_arg m c t l)
  refine (filmFirst_apply (View.ld (xTile m c t) r0_2) (w1T m c t) p l).trans ?_
  refine Finset.sum_congr rfl fun s _ => ?_
  exact congrArg₂ (· * ·) ((ld_selector (xTile m c t) p s).trans (xTile_arg m c t p (selCol s))) (w1T_arg m c t s l)

/-- What the body stores for row `p` of the tile at point `t` is the specified result at batch row `64 · t + p`. -/
theorem tile_row (c : Dev nD) (t : Fin cfg0.N) (p : Fin 64) (z : Fin 1) :
    k0_pay1 (F := Ideal)
        (k0_pay2 (hTile m c t) (cTile m c t) (View.ld (xTile m c t) r0_1) (whhT m c t) (wihRow m c t) (biasRow m c t))
        (k0_pay3 (View.ld (xTile m c t) r0_2) (w1T m c t)) (k0_pay4 (b1Row m c t))
        (w2T m c t) (b2Row m c t) (fcwT m c t) (fcbCell m c t) (ix2 p z)
      = resultOf m c (ix2 (row t p) z) := by
  refine (stored_apply
    (k0_pay2 (hTile m c t) (cTile m c t) (View.ld (xTile m c t) r0_1) (whhT m c t) (wihRow m c t) (biasRow m c t))
    (k0_pay3 (View.ld (xTile m c t) r0_2) (w1T m c t)) (k0_pay4 (b1Row m c t))
    (w2T m c t) (b2Row m c t) (fcwT m c t) (fcbCell m c t) p z).trans ?_
  have eh : (fun k => k0_pay2 (F := Ideal) (hTile m c t) (cTile m c t) (View.ld (xTile m c t) r0_1) (whhT m c t) (wihRow m c t) (biasRow m c t) (ix2 p k))
      = cellOut (gateSplit (argX m c (ix2 (row t p) (0 : Fin 5))) (fun k => argH m c (ix3 (0 : Fin 1) (row t p) k))
          (fun j => argWih m c (ix2 j (0 : Fin 1))) (fun j k => argWhh m c (ix2 j k))
          (fun j => argBih m c (ix1 j)) (fun j => argBhh m c (ix1 j))) (fun k => argC m c (ix3 (0 : Fin 1) (row t p) k)) := by
    funext k
    refine (hidden_apply (hTile m c t) (cTile m c t) (View.ld (xTile m c t) r0_1) (whhT m c t) (wihRow m c t) (biasRow m c t) p k).trans ?_
    rw [tileGate_eq m c t p, show (fun k => cTile m c t (ix2 p k)) = fun k => argC m c (ix3 (0 : Fin 1) (row t p) k) from
      funext fun k => cTile_arg m c t p k]
  have ef : (fun l => max (k0_pay3 (F := Ideal) (View.ld (xTile m c t) r0_2) (w1T m c t) (ix2 p l) + k0_pay4 (F := Ideal) (b1Row m c t) (ix2 (0 : Fin 1) l))
        (Ideal.ofBits .f32 0x00000000#32))
      = filmHidden (fun s => argX m c (ix2 (row t p) (selCol s))) (fun l s => argW1 m c (ix2 l s)) (fun l => argB1 m c (ix1 l)) := by
    rw [filmBias_eq]
    exact tileHidden_eq m c t p
  have ew2 : (fun j l => w2T m c t (ix2 l j)) = fun j l => argW2 m c (ix2 j l) :=
    funext fun j => funext fun l => w2T_arg m c t l j
  have eb2 : (fun j => b2Row m c t (ix2 (0 : Fin 1) j)) = fun j => argB2 m c (ix1 j) :=
    funext fun j => b2Row_arg m c t j
  have efw : (fun k => fcwT m c t (ix2 k (0 : Fin 1))) = fun k => argFcw m c (ix2 (0 : Fin 1) k) :=
    funext fun k => fcwT_arg m c t k
  rw [eh, ef, ew2, eb2, efw, fcbCell_arg m c t]
  rfl

/-! ## Block by block, then the whole array -/

theorem zeroOffsets : (![0, 0] : Fin 2 → Nat) = fun _ => 0 := funext fun a => by fin_cases a <;> rfl

/-- What point `t` writes back is block `t` of the specified result. -/
theorem flushed_eq (c : Dev nD) (t : Fin cfg0.N) :
    (dats m 0 c).flushed 12 t = ((cfg0.win 12).blk t).view.read (Elt Ideal) (resultOf m c) := by
  rw [Cert.KernelIdeal.Value.flushed12]
  unfold out0_12
  rw [View.canon_unit_zero zeroOffsets]
  simp only [View.ld_unit_zero (S := S64x1024) zeroOffsets, View.ld_unit_zero (S := S1024x4096) zeroOffsets,
    View.ld_unit_zero (S := S1x4096) zeroOffsets, View.ld_unit_zero (S := S4x2048) zeroOffsets,
    View.ld_unit_zero (S := S1x2048) zeroOffsets, View.ld_unit_zero (S := S2048x2048) zeroOffsets,
    View.ld_unit_zero (S := S1024x1) zeroOffsets, View.ld_unit_zero (S := S1x1) zeroOffsets]
  funext y
  show k0_pay1 (F := Ideal)
        (k0_pay2 (hTile m c t) (cTile m c t) (View.ld (xTile m c t) r0_1) (whhT m c t) (wihRow m c t) (biasRow m c t))
        (k0_pay3 (View.ld (xTile m c t) r0_2) (w1T m c t)) (k0_pay4 (b1Row m c t))
        (w2T m c t) (b2Row m c t) (fcwT m c t) (fcbCell m c t) y
      = resultOf m c (((cfg0.win 12).blk t).view.emb y)
  obtain ⟨p, z, rfl⟩ : ∃ (p : Fin 64) (z : Fin 1), y = ix2 p z :=
    ⟨⟨(y 0).val, (y 0).isLt⟩, ⟨(y 1).val, (y 1).isLt⟩, funext fun a => Fin.ext (by
      match a with
      | ⟨0, _⟩ => rfl
      | ⟨1, _⟩ => rfl)⟩
  exact (tile_row m c t p z).trans (congrArg (resultOf m c) (outIndex t p z).symm)

/-- An index of the result is in point `t`'s block iff each coordinate is in the block's range on its axis. -/
theorem mem_block (t : Fin cfg0.N) (i : S32768x1.Idx) :
    i ∈ ((cfg0.win 12).blk t).view.set ↔ ∀ a : Fin 2, win0_12.index t a * S64x1.size a ≤ (i a).val ∧ (i a).val < win0_12.index t a * S64x1.size a + S64x1.size a := by
  show i ∈ ((View.whole main_v18).slice (win0_12.rect t)).set ↔ _
  rw [View.set_slice_whole, Rect.mem_set_unit]
  exact Iff.rfl

/-- Row `r` lies in the block of point `r / 64`. -/
theorem covered (i : S32768x1.Idx) : ∃ t : Fin cfg0.N, (cfg0.win 12).flush t = true ∧ i ∈ ((cfg0.win 12).blk t).view.set := by
  have hi0 : (i 0).val < 32768 := (i 0).isLt
  have hi1 : (i 1).val < 1 := (i 1).isLt
  have hN : cfg0.N = 512 := N_0
  refine ⟨⟨(i 0).val / 64, by rw [hN]; omega⟩, flush0_12 _, ?_⟩
  obtain ⟨-, -, -, -, -, -, -, -, -, -, -, -, -, -, -, -, -, -, -, -, -, -, -, -, e0, e1⟩ := blockIndex ⟨(i 0).val / 64, by rw [hN]; omega⟩
  rw [mem_block]
  intro a
  match a with
  | ⟨0, _⟩ =>
    show win0_12.index ⟨(i 0).val / 64, _⟩ (0 : Fin 2) * 64 ≤ (i 0).val ∧ (i 0).val < win0_12.index ⟨(i 0).val / 64, _⟩ (0 : Fin 2) * 64 + 64
    rw [e0]
    show (i 0).val / 64 * 64 ≤ (i 0).val ∧ (i 0).val < (i 0).val / 64 * 64 + 64
    omega
  | ⟨1, _⟩ =>
    show win0_12.index ⟨(i 0).val / 64, _⟩ (1 : Fin 2) * 1 ≤ (i 1).val ∧ (i 1).val < win0_12.index ⟨(i 0).val / 64, _⟩ (1 : Fin 2) * 1 + 1
    rw [e1]
    omega

/-- After the run the result array is the specified result. -/
theorem final (c : Dev nD) : (dats m 0 c).arrAt 12 cfg0.N = resultOf m c :=
  (dats m 0 c).arrAt_eq_of_cover 12 (resultOf m c) (fun t _ => flushed_eq m c t) covered

/-- Every weakly fair execution of the kernel program terminates with its result array at the specified result of the
    arguments and the arguments unchanged. -/
theorem run : θ_run defs (onTc (τ := τ) (main (F := Ideal))) ⟨m, fun _ => 0, ρ⟩ fun r => ∀ c : Dev nD,
      r.2.mem ((c : Thread nD τ).loc main_v18) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩)
    (Cert.KernelIdeal.Value.run_blocks m ρ)

end Cert.KernelIdeal.Tile

end
-- ==== Proof.RefRow.lean ====
/-
  What the reference computes for one batch row, in terms of the row functions.

  The reference is a straight line of whole-array operations. Read one operation at a time at an index, its result at
  `(b, ·)` depends only on row `b` of the input, of the previous hidden state and of the previous cell state, and on the
  parameters: slices read a shifted column, transposes swap the two coordinates, a reshape that drops a leading unit axis
  keeps the other two, a bias broadcast reads its one row, and each `dot_general` is a plain sum over its one contracted
  axis. The logistic function appears spelt out, `1 / (1 + e^(-z))` with the float `1.0`, which denotes the real `1`.
  Stage by stage the values are the row functions: gates, hidden row, FiLM hidden layer, FiLM output, modulated row, head.
-/
import proofs.«131633_j76768245448756_1_alg».proof.Proof.Gen.ReferenceIdeal.Read
import proofs.«131633_j76768245448756_1_alg».proof.Proof.Spec

noncomputable section

open scoped BigOperators
open Idealize.ShloMosaic Idealize.ShloMosaic.ValueIdx Idealize.SL.Sem

namespace Cert.ReferenceIdeal.Row

open Cert.ReferenceIdeal Cert.ReferenceIdeal.Gen Cert.ReferenceIdeal.Read Cert.LstmRow

/-! ## Where each leaf is read -/

section Indices
variable (b : Fin 32768)

theorem at_sig (j : Fin 4096) : idx_main_v0 (lidx_main_v5 (ix2 b j) 0) = ix2 b (0 : Fin 5) :=
  funext fun a => Fin.ext (by match a with | ⟨0, _⟩ => rfl | ⟨1, _⟩ => rfl)
theorem at_wih (j : Fin 4096) : idx_main_v4 (ridx_main_v5 (ix2 b j) 0) = ix2 j (0 : Fin 1) :=
  funext fun a => Fin.ext (by match a with | ⟨0, _⟩ => rfl | ⟨1, _⟩ => rfl)
theorem at_bih (j : Fin 4096) : idx_main_v6 (idx_main_v7 (ix2 b j)) = ix1 j :=
  funext fun a => Fin.ext (by match a with | ⟨0, _⟩ => rfl)
theorem at_bhh (j : Fin 4096) : idx_main_v12 (idx_main_v13 (ix2 b j)) = ix1 j :=
  funext fun a => Fin.ext (by match a with | ⟨0, _⟩ => rfl)
/-- Dropping the leading unit axis of the hidden state keeps row and column. -/
theorem at_h (j : Fin 4096) (k : Fin 1024) : idx_main_v2 (lidx_main_v10 (ix2 b j) k) = ix3 (0 : Fin 1) b k :=
  funext fun a => Fin.ext (by
    have hb := b.isLt; have hk := k.isLt
    match a with
    | ⟨0, _⟩ => rfl
    | ⟨1, _⟩ => show (b.val * 1024 + k.val) / 1024 % 32768 = b.val; omega
    | ⟨2, _⟩ => show (b.val * 1024 + k.val) % 1024 = k.val; omega)
theorem at_whh (j : Fin 4096) (k : Fin 1024) : idx_main_v9 (ridx_main_v10 (ix2 b j) k) = ix2 j k :=
  funext fun a => Fin.ext (by match a with | ⟨0, _⟩ => rfl | ⟨1, _⟩ => rfl)
/-- The same for the cell state. -/
theorem at_c (k : Fin 1024) : idx_main_v3 (ix2 b k) = ix3 (0 : Fin 1) b k :=
  funext fun a => Fin.ext (by
    have hb := b.isLt; have hk := k.isLt
    match a with
    | ⟨0, _⟩ => rfl
    | ⟨1, _⟩ => show (b.val * 1024 + k.val) / 1024 % 32768 = b.val; omega
    | ⟨2, _⟩ => show (b.val * 1024 + k.val) % 1024 = k.val; omega)
theorem at_g0 (k : Fin 1024) : idx_main_v15 (ix2 b k) = ix2 b (gcol 0 (by norm_num) k) :=
  funext fun a => Fin.ext (by match a with | ⟨0, _⟩ => rfl | ⟨1, _⟩ => show k.val = 0 + k.val; omega)
theorem at_g1 (k : Fin 1024) : idx_main_v16 (ix2 b k) = ix2 b (gcol 1024 (by norm_num) k) :=
  funext fun a => Fin.ext (by match a with | ⟨0, _⟩ => rfl | ⟨1, _⟩ => rfl)
theorem at_g2 (k : Fin 1024) : idx_main_v17 (ix2 b k) = ix2 b (gcol 2048 (by norm_num) k) :=
  funext fun a => Fin.ext (by match a with | ⟨0, _⟩ => rfl | ⟨1, _⟩ => rfl)
theorem at_g3 (k : Fin 1024) : idx_main_v18 (ix2 b k) = ix2 b (gcol 3072 (by norm_num) k) :=
  funext fun a => Fin.ext (by match a with | ⟨0, _⟩ => rfl | ⟨1, _⟩ => rfl)
theorem at_sel (l : Fin 2048) (s : Fin 4) : idx_main_v1 (lidx_main_v44 (ix2 b l) s) = ix2 b (selCol s) :=
  funext fun a => Fin.ext (by match a with | ⟨0, _⟩ => rfl | ⟨1, _⟩ => rfl)
theorem at_w1 (l : Fin 2048) (s : Fin 4) : idx_main_v43 (ridx_main_v44 (ix2 b l) s) = ix2 l s :=
  funext fun a => Fin.ext (by match a with | ⟨0, _⟩ => rfl | ⟨1, _⟩ => rfl)
theorem at_b1 (l : Fin 2048) : idx_main_v45 (idx_main_v46 (ix2 b l)) = ix1 l :=
  funext fun a => Fin.ext (by match a with | ⟨0, _⟩ => rfl)
theorem at_hid (j l : Fin 2048) : lidx_main_v50 (ix2 b j) l = ix2 b l :=
  funext fun a => Fin.ext (by match a with | ⟨0, _⟩ => rfl | ⟨1, _⟩ => rfl)
theorem at_w2 (j l : Fin 2048) : idx_main_v49 (ridx_main_v50 (ix2 b j) l) = ix2 j l :=
  funext fun a => Fin.ext (by match a with | ⟨0, _⟩ => rfl | ⟨1, _⟩ => rfl)
theorem at_b2 (j : Fin 2048) : idx_main_v51 (idx_main_v52 (ix2 b j)) = ix1 j :=
  funext fun a => Fin.ext (by match a with | ⟨0, _⟩ => rfl)
theorem at_f0 (k : Fin 1024) : idx_main_v54 (ix2 b k) = ix2 b (fcol 0 (by norm_num) k) :=
  funext fun a => Fin.ext (by match a with | ⟨0, _⟩ => rfl | ⟨1, _⟩ => show k.val = 0 + k.val; omega)
theorem at_f1 (k : Fin 1024) : idx_main_v55 (ix2 b k) = ix2 b (fcol 1024 (by norm_num) k) :=
  funext fun a => Fin.ext (by match a with | ⟨0, _⟩ => rfl | ⟨1, _⟩ => rfl)
theorem at_hm (k : Fin 1024) : lidx_main_v59 (ix2 b (0 : Fin 1)) k = ix2 b k :=
  funext fun a => Fin.ext (by match a with | ⟨0, _⟩ => rfl | ⟨1, _⟩ => rfl)
theorem at_fcw (k : Fin 1024) : idx_main_v58 (ridx_main_v59 (ix2 b (0 : Fin 1)) k) = ix2 (0 : Fin 1) k :=
  funext fun a => Fin.ext (by match a with | ⟨0, _⟩ => rfl | ⟨1, _⟩ => rfl)
theorem at_fcb : idx_main_v60 (idx_main_v61 (ix2 b (0 : Fin 1))) = ix1 (0 : Fin 1) :=
  funext fun a => Fin.ext (by match a with | ⟨0, _⟩ => rfl)

end Indices

/-! ## The stages -/

variable (x0 : (⟨S32768x5, .f32⟩ : BufTy).Contents (Elt Ideal)) (x1 x2 : (⟨S1x32768x1024, .f32⟩ : BufTy).Contents (Elt Ideal)) (x3 : (⟨S4096x1, .f32⟩ : BufTy).Contents (Elt Ideal)) (x4 : (⟨S4096x1024, .f32⟩ : BufTy).Contents (Elt Ideal))
  (x5 x6 : (⟨S4096, .f32⟩ : BufTy).Contents (Elt Ideal)) (x7 : (⟨S2048x4, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal))
  (x11 : (⟨S1x1024, .f32⟩ : BufTy).Contents (Elt Ideal)) (x12 : (⟨S1, .f32⟩ : BufTy).Contents (Elt Ideal))

/-- Row `b`'s gates from the arrays. -/
abbrev gatesOf (b : Fin 32768) : Fin 4096 → EReal :=
  gateSplit (x0 (ix2 b (0 : Fin 5))) (fun k => x1 (ix3 (0 : Fin 1) b k)) (fun j => x3 (ix2 j (0 : Fin 1)))
    (fun j k => x4 (ix2 j k)) (fun j => x5 (ix1 j)) (fun j => x6 (ix1 j))

theorem gates_apply (b : Fin 32768) (j : Fin 4096) :
    val_main_v14 (F := Ideal) x0 x1 x3 x4 x5 x6 (ix2 b j) = gatesOf x0 x1 x3 x4 x5 x6 b j := by
  rw [val_main_v14_apply, val_main_v11_apply, val_main_v8_apply, val_main_v5_apply, val_main_v10_apply,
    val_main_v7_apply, val_main_v6_apply, val_main_v13_apply, val_main_v12_apply, Fin.sum_univ_one,
    val_main_v0_apply, val_main_v4_apply, at_sig, at_wih, at_bih, at_bhh]
  have hs : (∑ k : Fin 1024, val_main_v2 (F := Ideal) x1 (lidx_main_v10 (ix2 b j) k) * val_main_v9 (F := Ideal) x4 (ridx_main_v10 (ix2 b j) k))
      = ∑ k : Fin 1024, x1 (ix3 (0 : Fin 1) b k) * x4 (ix2 j k) :=
    Finset.sum_congr rfl fun k _ => by rw [val_main_v2_apply, val_main_v9_apply, at_h, at_whh]
  rw [hs]
  rfl

/-- The spelt-out logistic function with the float `1.0` is the logistic function. -/
theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [one_f32]
  rfl

/-- Row `b`'s new hidden row. -/
theorem hidden_apply (b : Fin 32768) (k : Fin 1024) :
    val_main_v42 (F := Ideal) x0 x1 x2 x3 x4 x5 x6 (ix2 b k)
      = cellOut (gatesOf x0 x1 x3 x4 x5 x6 b) (fun k => x2 (ix3 (0 : Fin 1) b k)) k := by
  rw [val_main_v42_apply, val_main_v37_apply, val_main_v36_apply, val_main_cst_4_apply, val_main_v35_apply,
    val_main_v34_apply, val_main_cst_3_apply, val_main_v33_apply, val_main_v32_apply, val_main_v18_apply, at_g3, gates_apply,
    val_main_v41_apply, val_main_v40_apply, val_main_v38_apply, val_main_v30_apply, val_main_v29_apply, val_main_cst_2_apply,
    val_main_v28_apply, val_main_v27_apply, val_main_cst_1_apply, val_main_v26_apply, val_main_v25_apply, val_main_v16_apply,
    at_g1, gates_apply, val_main_v3_apply, at_c,
    val_main_v39_apply, val_main_v24_apply, val_main_v23_apply, val_main_cst_0_apply, val_main_v22_apply, val_main_v21_apply,
    val_main_cst_apply, val_main_v20_apply, val_main_v19_apply, val_main_v15_apply, at_g0, gates_apply,
    val_main_v31_apply, val_main_v17_apply, at_g2, gates_apply,
    logistic_spelt, logistic_spelt, logistic_spelt]
  rfl

/-- Row `b`'s FiLM hidden layer. -/
abbrev hiddenOf (b : Fin 32768) : Fin 2048 → EReal :=
  filmHidden (fun s => x0 (ix2 b (selCol s))) (fun l s => x7 (ix2 l s)) (fun l => x8 (ix1 l))

theorem filmHidden_apply (b : Fin 32768) (l : Fin 2048) :
    val_main_v48 (F := Ideal) x0 x7 x8 (ix2 b l) = hiddenOf x0 x7 x8 b l := by
  rw [val_main_v48_apply, val_main_v47_apply, val_main_v44_apply, val_main_v46_apply, val_main_v45_apply, at_b1,
    val_main_call0_v0_apply, val_main_call0_cst_apply]
  have hs : (∑ s : Fin 4, val_main_v1 (F := Ideal) x0 (lidx_main_v44 (ix2 b l) s) * val_main_v43 (F := Ideal) x7 (ridx_main_v44 (ix2 b l) s))
      = ∑ s : Fin 4, x0 (ix2 b (selCol s)) * x7 (ix2 l s) :=
    Finset.sum_congr rfl fun s _ => by rw [val_main_v1_apply, val_main_v43_apply, at_sel, at_w1]
  rw [hs]
  rfl

/-- Row `b`'s FiLM output. -/
abbrev filmOf (b : Fin 32768) : Fin 2048 → EReal :=
  film (hiddenOf x0 x7 x8 b) (fun j l => x9 (ix2 j l)) (fun j => x10 (ix1 j))

theorem film_apply (b : Fin 32768) (j : Fin 2048) :
    val_main_v53 (F := Ideal) x0 x7 x8 x9 x10 (ix2 b j) = filmOf x0 x7 x8 x9 x10 b j := by
  rw [val_main_v53_apply, val_main_v50_apply, val_main_v52_apply, val_main_v51_apply, at_b2]
  have hs : (∑ l : Fin 2048, val_main_v48 (F := Ideal) x0 x7 x8 (lidx_main_v50 (ix2 b j) l) * val_main_v49 (F := Ideal) x9 (ridx_main_v50 (ix2 b j) l))
      = ∑ l : Fin 2048, hiddenOf x0 x7 x8 b l * x9 (ix2 j l) :=
    Finset.sum_congr rfl fun l _ => by rw [at_hid, filmHidden_apply, val_main_v49_apply, at_w2]
  rw [hs]
  rfl

/-- Row `b`'s modulated hidden row. -/
theorem modulated_apply (b : Fin 32768) (k : Fin 1024) :
    val_main_v57 (F := Ideal) x0 x1 x2 x3 x4 x5 x6 x7 x8 x9 x10 (ix2 b k)
      = modulated (filmOf x0 x7 x8 x9 x10 b)
          (cellOut (gatesOf x0 x1 x3 x4 x5 x6 b) (fun k => x2 (ix3 (0 : Fin 1) b k))) k := by
  rw [val_main_v57_apply, val_main_v56_apply, val_main_v54_apply, at_f0, film_apply, hidden_apply,
    val_main_v55_apply, at_f1, film_apply]
  rfl

/-- Row `b`'s output. -/
theorem out_apply (b : Fin 32768) (z : Fin 1) :
    val_main_v62 (F := Ideal) x0 x1 x2 x3 x4 x5 x6 x7 x8 x9 x10 x11 x12 (ix2 b z)
      = head (modulated (filmOf x0 x7 x8 x9 x10 b)
            (cellOut (gatesOf x0 x1 x3 x4 x5 x6 b) (fun k => x2 (ix3 (0 : Fin 1) b k))))
          (fun k => x11 (ix2 (0 : Fin 1) k)) (x12 (ix1 (0 : Fin 1))) := by
  obtain rfl : z = 0 := Subsingleton.elim z 0
  rw [val_main_v62_apply, val_main_v59_apply, val_main_v61_apply, val_main_v60_apply, at_fcb]
  have hs : (∑ k : Fin 1024, val_main_v57 (F := Ideal) x0 x1 x2 x3 x4 x5 x6 x7 x8 x9 x10 (lidx_main_v59 (ix2 b (0 : Fin 1)) k)
        * val_main_v58 (F := Ideal) x11 (ridx_main_v59 (ix2 b (0 : Fin 1)) k))
      = ∑ k : Fin 1024, modulated (filmOf x0 x7 x8 x9 x10 b)
          (cellOut (gatesOf x0 x1 x3 x4 x5 x6 b) (fun k => x2 (ix3 (0 : Fin 1) b k))) k * x11 (ix2 (0 : Fin 1) k) :=
    Finset.sum_congr rfl fun k _ => by rw [at_hm, modulated_apply, val_main_v58_apply, at_fcw]
  rw [hs]
  rfl

/-- The reference's whole result is the specified one. -/
theorem result_eq :
    val_main_v62 (F := Ideal) x0 x1 x2 x3 x4 x5 x6 x7 x8 x9 x10 x11 x12 = result x0 x1 x2 x3 x4 x5 x6 x7 x8 x9 x10 x11 x12 := by
  funext i
  obtain ⟨b, z, rfl⟩ : ∃ (b : Fin 32768) (z : Fin 1), i = ix2 b z := ⟨i 0, i 1, eq_ix2 i⟩
  rw [out_apply]
  rfl

end Cert.ReferenceIdeal.Row

end
-- ==== Proof.lean ====
/-
  A single-step LSTM cell with a FiLM-modulated hidden state and a linear head, as a tiled kernel and as a plain array program:
  both compute, for every batch row, the head of `film[:H] · h_new + film[H:]`, where `h_new` is the cell's new hidden row and
  `film` is a two-layer rectified generator applied to the row's selector entries.

  At the ideal values the two programs differ in three ways, none of which changes a value. The kernel works on tiles of 64
  rows against parameters the host has transposed, reshaped and narrowed beforehand; transposes and reshapes only move
  entries and a change of float format is the identity. The kernel's matrix products accumulate into zero and the reference's
  are plain contractions; both are the same sums. And the kernel adds the two gate biases first and the two products first,
  where the reference adds input product, input bias, recurrent product and recurrent bias in that order; addition of
  extended reals is commutative and associative, so the gate is the same, with no appeal to finiteness. The logistic function
  is one operation in the kernel and the expression `1 / (1 + e^(-z))` in the reference; these are one function by definition.

  So both programs end with their result array at ONE function of the arguments (`Cert.LstmRow.result`): the kernel by reading
  what each grid point writes back and covering the rows by the 512 blocks, the reference by reading its operations one at a
  time at an index. The three frames are the generated frames of the kernel programs and the reference's generated run with
  its result dropped; the idealization ledger is empty.
-/
import proofs.«131633_j76768245448756_1_alg».proof.Defs
import proofs.«131633_j76768245448756_1_alg».proof.Proof.Gen.Kernel
import proofs.«131633_j76768245448756_1_alg».proof.Proof.Gen.Kernel.Skeleton
import proofs.«131633_j76768245448756_1_alg».proof.Proof.Gen.Kernel.Launch
import proofs.«131633_j76768245448756_1_alg».proof.Proof.Gen.Kernel.Points
import proofs.«131633_j76768245448756_1_alg».proof.Proof.Gen.Kernel.Frame
import proofs.«131633_j76768245448756_1_alg».proof.Proof.Gen.KernelIdeal
import proofs.«131633_j76768245448756_1_alg».proof.Proof.Gen.KernelIdeal.Skeleton
import proofs.«131633_j76768245448756_1_alg».proof.Proof.Gen.KernelIdeal.Launch
import proofs.«131633_j76768245448756_1_alg».proof.Proof.Gen.KernelIdeal.Points
import proofs.«131633_j76768245448756_1_alg».proof.Proof.Gen.KernelIdeal.Frame
import proofs.«131633_j76768245448756_1_alg».proof.Proof.Gen.ReferenceIdeal
import proofs.«131633_j76768245448756_1_alg».proof.Proof.Gen.Pre_finite_inputs
import proofs.«131633_j76768245448756_1_alg».proof.Proof.Gen.KernelIdeal.Value
import proofs.«131633_j76768245448756_1_alg».proof.Proof.Gen.ReferenceIdeal.Run
import proofs.«131633_j76768245448756_1_alg».proof.Proof.Gen.ReferenceIdeal.Read
import proofs.«131633_j76768245448756_1_alg».proof.Proof.KernelValue
import proofs.«131633_j76768245448756_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the idealized kernel and the idealized reference both end with their result at the one
    function of the arguments: the kernel's blocks cover it, the reference's operations compose to it. -/
theorem algebraic : Cert.algebraic_KernelIdeal_ReferenceIdeal := by
  intro m g m' g' _ hagree
  refine ⟨fun c => Cert.KernelIdeal.Tile.resultOf m c, Cert.KernelIdeal.Tile.run m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8, h9, h10, h11, h12⟩ := hagree c
  rw [Cert.ReferenceIdeal.Read.val_main_v62_eq, Cert.ReferenceIdeal.Row.result_eq,
    h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
